-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10000x64 : S_.BroadcastsInDim S10000x64 (![] : Fin 0 → Fin S10000x64.rank)
  reducesTo_S10000x64_S_d0_1 : S10000x64.ReducesTo [0, 1] S_

variable [Facts]

def fn_part2 {F : FTy → Type} [FloatOps F] (main_arg7 : FVec F S64 .f32) (main_arg8 : FVec F S10000x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S10000x64 .f32 := Host.absf main_arg8
  let main_cst_14 : FVec F S_ .f32 := constant S_ .f32 0x7F800000#32
  let main_v40 : FVec F S10000x64 .f32 := broadcastInDim S10000x64 ![] bcast_S_S10000x64 main_cst_14
  let main_v41 : IVec S10000x64 1 := cmpf .olt main_v39 main_v40
  let main_c_15 : IVec S_ 1 := constantI S_ 1 1#1
  let main_v42 : IVec S_ 1 := (fun x v => Host.reduce IntOp.andi x v reducesTo_S10000x64_S_d0_1 h_S_) main_v41 main_c_15
  let main_v43 : IVec S_ 1 := andi main_v38 main_v42
  main_v43

def fn_part1 {F : FTy → Type} [FloatOps F] (main_arg4 : FVec F S128x64 .f32) (main_arg5 : FVec F S64 .f32) (main_arg6 : FVec F S128x64 .f32) (main_arg7 : FVec F S64 .f32) (main_arg8 : FVec F S10000x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S10000x64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S1x128 : Shape := ⟨2, ![1, 128]⟩
abbrev S400x10000 : Shape := ⟨2, ![400, 10000]⟩
abbrev S400x128 : Shape := ⟨2, ![400, 128]⟩
abbrev S400x64 : Shape := ⟨2, ![400, 64]⟩

abbrev nBuf : Space → Nat
  | .hbm => 15
  | .vmem => 17
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S10000x128, .f32⟩
  | .hbm, ⟨14, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S1x128, .f32⟩
  | .local _ .vmem, ⟨13, _⟩ => ⟨S400x64, .f32⟩
  | .local _ .vmem, ⟨14, _⟩ => ⟨S400x64, .f32⟩
  | .local _ .vmem, ⟨15, _⟩ => ⟨S400x64, .f32⟩
  | .local _ .vmem, ⟨16, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S128x128_S128x128 : S128x128.ShapeCasts S128x128
  inb_S400x128_S400x128_0_0 : ∀ a, (![0, 0] : Fin 2 → Nat) a + S400x128.size a ≤ S400x128.size a
  h_S400x128 : 0 < S400x128.numel
  slices_S400x128_o0_0_S400x64 : S400x128.Slices ![0, 0] S400x64
  slices_S400x128_o0_64_S400x64 : S400x128.Slices ![0, 64] S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S400x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x64 : Shape := ⟨2, ![10000, 64]⟩
abbrev S1x128 : Shape := ⟨2, ![1, 128]⟩
abbrev S_ : Shape := ⟨0, ![]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x64, .f32⟩
  | .hbm, ⟨18, _⟩ => ⟨S10000x64, .f32⟩
  | .hbm, ⟨19, _⟩ => ⟨S1x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x64, .f32⟩
  | .hbm, ⟨24, _⟩ => ⟨S1x64, .f32⟩
  | .hbm, ⟨25, _⟩ => ⟨S10000x64, .f32⟩
  | .hbm, ⟨26, _⟩ => ⟨S10000x64, .f32⟩
  | .hbm, ⟨27, _⟩ => ⟨S_, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Stage1.lean ====
/-
  The first launch (the hidden layer and the joined heads) at a parameter `V`, the buffer contents when it is entered.

  Its grid has 25 points; point t handles rows 400·t … 400·t+399. Five input windows: a row block of the adjacency
  (window 0) and four whole arrays whose block never moves — the features (1), the first weight matrix (2), the 1 × 128
  bias (3), the joined 128 × 128 head weights (4) —; one output window (5), a 400 × 128 row block; and one scratch
  buffer of 10000 × 128 the kernel keeps between points. At the FIRST point the body stores the projected features
  `k0_pay1 x W1` (all of them) into the scratch; at EVERY point it then stores into the output block the value
  `k0_pay2` of the adjacency block, the scratch, the bias and the head weights. So from the end of the first point on
  the scratch holds the projected features (`pfeat`), and each point's output block is `k0_pay2` over that same array.
-/
import proofs.«170476_g15874199126456_cont_week2b_1129_3_alg».proof.Proof.Gen.Kernel.Launch
import proofs.«170476_g15874199126456_cont_week2b_1129_3_alg».proof.Proof.Gen.Kernel.Skeleton
import proofs.«170476_g15874199126456_cont_week2b_1129_3_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched its block
    index has not moved since the point before. One lemma per input window (0 to 4). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid position -/

/-- The body's one branch: taken when the grid coordinate is zero. -/
abbrev cond0 (i : grid0.Coords) : Prop := (Scalar.cmpi .ne (Scalar.extui (Scalar.cmpi .eq (BitVec.ofNat 32 (i 0).val) 0#32)) 0#32) = 1#1
/-- It is taken at the first point only (decided over the 25 points). -/
theorem hcond0 : ∀ t : Fin cfg0.N, cond0 (grid0.coords t) ↔ t.val = 0 :=
  (by decide +kernel : ∀ t : Fin grid0.N, cond0 (grid0.coords t) ↔ t.val = 0)

/-! ## The body's accesses: each the whole of its buffer -/

abbrev qAdj : Rect S400x10000 := Rect.unit (s := S400x10000) ![0, 0] S400x10000.size inb_S400x10000_S400x10000_0_0
abbrev qWide : Rect S10000x128 := Rect.unit (s := S10000x128) ![0, 0] S10000x128.size inb_S10000x128_S10000x128_0_0
abbrev qSq : Rect S128x128 := Rect.unit (s := S128x128) ![0, 0] S128x128.size inb_S128x128_S128x128_0_0
abbrev qBias : Rect S1x128 := Rect.unit (s := S1x128) ![0, 0] S1x128.size inb_S1x128_S1x128_0_0
abbrev qMid : Rect S400x128 := Rect.unit (s := S400x128) ![0, 0] S400x128.size inb_S400x128_S400x128_0_0

/-- The offsets of every access are zero on both axes. -/
theorem offs_zero : (![0, 0] : Fin 2 → Nat) = fun _ => 0 := by
  funext a; match a with | ⟨0, _⟩ => rfl | ⟨1, _⟩ => rfl

theorem cover_wide (p0 : Vec F S10000x128 .f32) (y : S10000x128.Idx) :
    ∃ pc ∈ ([⟨qWide, p0⟩] : List (View.Piece (Elt F) S10000x128 .f32)), y ∈ pc.1.set :=
  ⟨_, List.mem_singleton_self _, View.mem_set_unit_zero (S := S10000x128) offs_zero inb_S10000x128_S10000x128_0_0 y⟩
theorem cover_mid (p0 : Vec F S400x128 .f32) (y : S400x128.Idx) :
    ∃ pc ∈ ([⟨qMid, p0⟩] : List (View.Piece (Elt F) S400x128 .f32)), y ∈ pc.1.set :=
  ⟨_, List.mem_singleton_self _, View.mem_set_unit_zero (S := S400x128) offs_zero inb_S400x128_S400x128_0_0 y⟩

/-! ## The body's triples, one per side of the branch -/

set_option maxHeartbeats 2000000 in
/-- AT THE FIRST POINT (the branch taken): on whole buffers, the inputs' at contents `x0 … x4`, the output's and the
    scratch at anything, the body runs to the end leaving the inputs' as they were, the scratch at the projected
    features `k0_pay1 x1 x2` and the output's at `k0_pay2` over them. -/
theorem sound_kernel0_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .f32) (harg6 : arg6.IsWhole)
    (arg7 : Memref sig .tc .vmem S10000x128 .f32) (harg7 : arg7.IsWhole)
    (x0 : Vec F S400x10000 .f32) (x1 : Vec F S10000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 (k0_pay1 x1 x2) x3 x4)
            ∗ owns (c : Thread nD τ) arg7 fullShare (k0_pay1 x1 x2)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_mid _), View.canon_unit_zero (S := S400x128) offs_zero]
    simp only [View.readAt_eq_ld, View.readCov_unit_zero (S := S10000x128) _ offs_zero, View.ld_unit_zero (S := S400x10000) offs_zero,
      View.ld_unit_zero (S := S10000x128) offs_zero, View.ld_unit_zero (S := S128x128) offs_zero, View.ld_unit_zero (S := S1x128) offs_zero]
  iexists _; isplitr
  swap; · iexact H6
  ipureintro
  rw [View.read_writes_eq_canon _ _ _ (cover_wide _), View.canon_unit_zero (S := S10000x128) offs_zero]
  simp only [View.readAt_eq_ld, View.ld_unit_zero (S := S10000x128) offs_zero, View.ld_unit_zero (S := S128x128) offs_zero]

set_option maxHeartbeats 2000000 in
/-- AT EVERY LATER POINT (the branch not taken): the scratch at contents `xs` is read, not written; the output's buffer
    ends at `k0_pay2` over it. -/
theorem sound_kernel0_later (c : Dev nD) (E : Set ℕ) (i : grid0.Coords) (hc : ¬cond0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .f32) (harg6 : arg6.IsWhole)
    (arg7 : Memref sig .tc .vmem S10000x128 .f32) (harg7 : arg7.IsWhole)
    (x0 : Vec F S400x10000 .f32) (x1 : Vec F S10000x128 .f32) (x2 : Vec F S128x128 .f32) (x3 : Vec F S1x128 .f32) (x4 : Vec F S128x128 .f32)
    (xs : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 xs x3 x4)
            ∗ owns (c : Thread nD τ) arg7 fullShare xs) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_mid _), View.canon_unit_zero (S := S400x128) offs_zero]
    simp only [View.readAt_eq_ld, View.ld_unit_zero (S := S400x10000) offs_zero,
      View.ld_unit_zero (S := S10000x128) offs_zero, View.ld_unit_zero (S := S128x128) offs_zero, View.ld_unit_zero (S := S1x128) offs_zero]
  iexists f6; isplitr; · ipureintro; rfl
  iexact H6

/-! ## What the scratch holds from the end of the first point on -/

/-- The grid's first point. -/
abbrev t₀ : Fin cfg0.N := ⟨0, lt_of_lt_of_eq (by decide : 0 < 25) N_0.symm⟩

/-- The projected features: what the first point computes from the features' and the first weights' blocks there
    (each the whole of its array) and stores into the scratch. -/
def pfeat (c : Dev nD) : Vec F S10000x128 .f32 := k0_pay1 (iblk0 V c 1 t₀) (iblk0 V c 2 t₀)

/-- The scratch buffer as the kernel is handed it. -/
abbrev scr : Memref sig .tc .vmem S10000x128 .f32 := Memref.whole cc0_scratch0

/-- The second launch's own buffers, each at some contents: they ride through the first launch untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the kernel beside its windows: the scratch at some contents, the other launch's buffers,
    the generator register at some state. -/
theorem PhiA0_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; rfl

/-- The invariant between points: before the first point what the launch hands over; afterwards the same with the
    scratch at the projected features. -/
def PhiS (c : Dev nD) : ℕ → sProp 𝕄
  | 0 => Pipeline.ΦA spec0 c
  | _ + 1 => iprop((owns (c : Thread nD τ) scr fullShare (pfeat V c) ∗ others c) ∗ (∃ r, prngReg c r))

theorem PhiS_succ (c : Dev nD) (n : ℕ) :
    PhiS V c (n + 1) = iprop((owns (c : Thread nD τ) scr fullShare (pfeat V c) ∗ others c) ∗ (∃ r, prngReg c r)) := rfl

/-- After any point the invariant gives back what the launch handed over: the scratch's contents are forgotten. -/
theorem PhiS_out (c : Dev nD) (n : ℕ) : PhiS V c (n + 1) ⊢ Pipeline.ΦA spec0 c := by
  rw [PhiS_succ, PhiA0_eq]
  iintro ⟨⟨HS, Ho⟩, Hg⟩
  isplitl [HS Ho]
  · isplitl [HS]
    · iexists _; iexact HS
    iexact Ho
  iexact Hg

/-! ## The launch's proof data -/

/-- The proof data on core `c`: the arrays as the launch finds them; after the body at point `t` each input's buffer
    at its block and the output's at `k0_pay2` of the adjacency block, the projected features, the bias and the head
    weights; between points the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (pfeat V c) (iblk0 V c 3 t) (iblk0 V c 4 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 0 t) (pfeat V c) (iblk0 V c 3 t) (iblk0 V c 4 t) := by dsimp only [dat0]

theorem Phi0_castSucc (c : Dev nD) (t : Fin cfg0.N) : (dat0 V c).Φ t.castSucc = PhiS V c t.val := by
  dsimp only [dat0]; simp only [Fin.coe_castSucc]
theorem Phi0_succ (c : Dev nD) (t : Fin cfg0.N) : (dat0 V c).Φ t.succ = PhiS V c (t.val + 1) := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks; at the first point the scratch is at anything and
    ends at the projected features, at a later point it is at the projected features and stays so. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, Phi0_castSucc, Phi0_succ, PhiS_succ]
  by_cases hz : t.val = 0
  · obtain rfl : t = t₀ := Fin.ext hz
    rw [show PhiS V c (t₀ : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_kernel0_first c Set.univ _ ((hcond0 t₀).mpr rfl) _ _ _ _ _ _ _ _ _ _ _ _ _ _
      (iblk0 V c 0 t₀) (iblk0 V c 1 t₀) (iblk0 V c 2 t₀) (iblk0 V c 3 t₀) (iblk0 V c 4 t₀) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ := Nat.exists_eq_succ_of_ne_zero hz
    rw [hn, PhiS_succ]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_kernel0_later c Set.univ _ (fun h => hz ((hcond0 t).mp h)) _ _ _ _ _ _ _ _ _ _ _ _ _ _
      (iblk0 V c 0 t) (iblk0 V c 1 t) (iblk0 V c 2 t) (iblk0 V c 3 t) (iblk0 V c 4 t) (pfeat V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

/-- The invariant after the last point gives back what the launch handed over. -/
theorem Phi0_last (c : Dev nD) : (dat0 V c).Φ (Fin.last cfg0.N) ⊢ Pipeline.ΦA spec0 c := by
  have h : (Fin.last cfg0.N).val = 24 + 1 := by rw [Fin.val_last]; exact N_0
  rw [show (dat0 V c).Φ (Fin.last cfg0.N) = PhiS V c (Fin.last cfg0.N).val from rfl, h]
  exact PhiS_out V c 24

end Cert.Kernel.Fr

end
-- ==== Proof.K.Stage2.lean ====
/-
  The second launch (the sampling stage) at a parameter `V`, the buffer contents when it is entered.

  Its grid has 25 points; point t handles rows 400·t … 400·t+399. Four input windows: a row block of the adjacency
  (window 0), the whole 10000 × 128 array the first launch wrote (window 1), the 1 × 128 joined bias (window 2), a row
  block of the noise (window 3); one output window (4), the row block of the result. The body stores once, the whole
  output block, a pure function `k1_pay1` of the four input blocks; so after the body the output's buffer is that
  value (`zblk`), whatever it held before, and the inputs' buffers are untouched.
-/
import proofs.«170476_g15874199126456_cont_week2b_1129_3_alg».proof.Proof.Gen.Kernel.Launch
import proofs.«170476_g15874199126456_cont_week2b_1129_3_alg».proof.Proof.Gen.Kernel.Skeleton
import proofs.«170476_g15874199126456_cont_week2b_1129_3_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched its block
    index has not moved since the point before. One lemma per input window (0 to 3). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev rAdj : Rect S400x10000 := Rect.unit (s := S400x10000) ![0, 0] S400x10000.size inb_S400x10000_S400x10000_0_0
abbrev rWide : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rLat : Rect S400x64 := Rect.unit (s := S400x64) ![0, 0] S400x64.size inb_S400x64_S400x64_0_0

/-! ## What the body leaves in the output window's buffer -/

/-- The output buffer after the body, from the input blocks: its one store, of the whole block. -/
def zblk (x0 : Vec F S400x10000 .f32) (x1 : Vec F S10000x128 .f32) (x2 : Vec F S1x128 .f32) (x3 : Vec F S400x64 .f32) : Vec F S400x64 .f32 :=
  View.canon [⟨rLat, k1_pay1 (View.ld x0 rAdj) (View.ld x1 rWide) (View.ld x2 rBias) (View.ld x3 rLat)⟩]

/-- The one store covers the buffer. -/
theorem zcover (p0 : Vec F S400x64 .f32) (y : S400x64.Idx) :
    ∃ pc ∈ ([⟨rLat, p0⟩] : List (View.Piece (Elt F) S400x64 .f32)), y ∈ pc.1.set :=
  View.cover_of_tiled [⟨rLat, p0⟩] S400x64.size (by rfl) y

/-- The offsets of every access are zero on both axes. -/
theorem offs_zero1 : (![0, 0] : Fin 2 → Nat) = fun _ => 0 := by
  funext a; match a with | ⟨0, _⟩ => rfl | ⟨1, _⟩ => rfl

/-- The one store is of the whole block and every load of a whole buffer: the output buffer ends at the payload itself. -/
theorem zblk_eq (x0 : Vec F S400x10000 .f32) (x1 : Vec F S10000x128 .f32) (x2 : Vec F S1x128 .f32) (x3 : Vec F S400x64 .f32) :
    zblk x0 x1 x2 x3 = k1_pay1 x0 x1 x2 x3 := by
  unfold zblk
  rw [View.canon_unit_zero (S := S400x64) offs_zero1]
  simp only [View.ld_unit_zero (S := S400x10000) offs_zero1, View.ld_unit_zero (S := S10000x128) offs_zero1,
    View.ld_unit_zero (S := S1x128) offs_zero1, View.ld_unit_zero (S := S400x64) offs_zero1]

/-! ## The body's triple -/

set_option maxHeartbeats 1000000 in
/-- On whole buffers, the inputs' at contents `x0 … x3` and the output's at anything, the body runs to the end leaving the
    inputs' as they were and the output's at `zblk x0 x1 x2 x3`. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S400x64 .f32) (harg4 : arg4.IsWhole)
    (arg5 : Memref sig .tc .vmem S400x64 .f32) (harg5 : arg5.IsWhole)
    (x0 : Vec F S400x10000 .f32) (x1 : Vec F S10000x128 .f32) (x2 : Vec F S1x128 .f32) (x3 : Vec F S400x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (zblk x0 x1 x2 x3)) -∗ K ⟨⟩))
      ⊢ wp frame (wpE (defs₀ (F := F)) Variants.none c none) E (cc1__stage2_kernel i arg1 harg1 arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (zcover _)

/-! ## The launch's proof data -/

/-- The proof data on core `c`: the arrays as the launch finds them; after the body at point `t` each input's buffer at
    its block and the output's at `zblk` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => zblk (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = zblk (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Mem.lean ====
/-
  What the unscoped buffers hold at each boundary of the program, as a fold from the launch memory: at launch
  (`mem0`); after the four host operations that join the head weights and biases and reshape the biases (`mem1`, the first
  launch's entry contents `ent1`); after the first launch, its output array at what its write-backs leave (`mem2`, the
  second launch's entry contents `ent2`); after the second launch (`mem3`). No host operation and no write-back touches
  an argument, so each argument's buffer walks back through the fold to its launch contents.
-/
import proofs.«170476_g15874199126456_cont_week2b_1129_3_alg».proof.Proof.K.Stage1
import proofs.«170476_g15874199126456_cont_week2b_1129_3_alg».proof.Proof.K.Stage2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev mem0 : Dev nD → Valuation τ sig (Elt F) := fun c b => (s₀ m ρ).mem ((c : Dev nD), b)
/-- After the host operations (the first launch's entry). -/
abbrev mem1 : Dev nD → Valuation τ sig (Elt F) := fun c => StableHlo.after hostOps0 (mem0 m ρ c)
/-- The same read at the TensorCore's references. -/
abbrev ent1 : (c : Dev nD) → (b : Ref sig .tc) → Buf (Elt F) ((c : Thread nD τ).loc b) := fun c b => mem1 m ρ c b
/-- At the first launch's exit: its arrays at what the pipeline leaves, every other buffer as entered. -/
def mem2 (c : Dev nD) : Valuation τ sig (Elt F) :=
  Pipeline.withArrays spec0 c (mem1 m ρ c) fun w => (dat0 (ent1 m ρ) c).arrAt w cfg0.N
theorem mem2_arr (c : Dev nD) (w : Fin cfg0.W) :
    mem2 m ρ c (Proc.devRef .tc (Pipeline.arrRef spec0 w)) = (dat0 (ent1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
/-- The same read at the TensorCore's references (the second launch's entry). -/
abbrev ent2 : (c : Dev nD) → (b : Ref sig .tc) → Buf (Elt F) ((c : Thread nD τ).loc b) := fun c b => mem2 m ρ c b
theorem hF0 (c : Dev nD) (w : Fin cfg0.W) : (dat0 (ent1 m ρ) c).arrAt w cfg0.N = ent2 m ρ c (Pipeline.arrRef spec0 w) :=
  (mem2_arr m ρ c w).symm
theorem hrest0 (c : Dev nD) : ∀ b, b ∉ Finset.univ.image (Pipeline.arrRef spec0) → ent2 m ρ c b = ent1 m ρ c b :=
  fun b hb => mem2_of_ne m ρ c b fun w e => hb (Finset.mem_image.mpr ⟨w, Finset.mem_univ _, e⟩)

/-- At the second launch's exit. -/
def mem3 (c : Dev nD) : Valuation τ sig (Elt F) :=
  Pipeline.withArrays spec1 c (mem2 m ρ c) fun w => (dat1 (ent2 m ρ) c).arrAt w cfg1.N
theorem mem3_arr (c : Dev nD) (w : Fin cfg1.W) :
    mem3 m ρ c (Proc.devRef .tc (Pipeline.arrRef spec1 w)) = (dat1 (ent2 m ρ) c).arrAt w cfg1.N := by
  unfold mem3; exact Pipeline.withArrays_arr spec1 launch1.win.arr_inj c _ _ w
theorem mem3_of_ne (c : Dev nD) (b : Ref sig .tc) (hb : ∀ w, Pipeline.arrRef spec1 w ≠ b) :
    mem3 m ρ c (Proc.devRef .tc b) = mem2 m ρ c (Proc.devRef .tc b) := by
  unfold mem3; exact Pipeline.withArrays_of_ne spec1 c _ _ b hb
/-- The same read at the TensorCore's references (the second launch's exit). -/
abbrev ent3 : (c : Dev nD) → (b : Ref sig .tc) → Buf (Elt F) ((c : Thread nD τ).loc b) := fun c b => mem3 m ρ c b
theorem hF1 (c : Dev nD) (w : Fin cfg1.W) : (dat1 (ent2 m ρ) c).arrAt w cfg1.N = ent3 m ρ c (Pipeline.arrRef spec1 w) :=
  (mem3_arr m ρ c w).symm
theorem hrest1 (c : Dev nD) : ∀ b, b ∉ Finset.univ.image (Pipeline.arrRef spec1) → ent3 m ρ c b = ent2 m ρ c b :=
  fun b hb => mem3_of_ne m ρ c b fun w e => hb (Finset.mem_image.mpr ⟨w, Finset.mem_univ _, e⟩)

/-! ## The arguments end as launched -/

/-- `main_arg0` ends as launched: no host operation writes it and neither launch's write-backs touch it. -/
theorem mem3_main_arg0 (c : Dev nD) : mem3 m ρ c (Proc.devRef .tc main_arg0) = m ((c : Thread nD τ).loc main_arg0) :=
  calc mem3 m ρ c (Proc.devRef .tc main_arg0)
    _ = mem2 m ρ c (Proc.devRef .tc main_arg0) := (mem3_arr m ρ c 0).trans (((dat1 (ent2 m ρ) c).arrAt_in 0 rfl _).trans (A_eq1 (ent2 m ρ) c 0))
    _ = mem1 m ρ c (Proc.devRef .tc main_arg0) := (mem2_arr m ρ c 0).trans (((dat0 (ent1 m ρ) c).arrAt_in 0 rfl _).trans (A_eq0 (ent1 m ρ) c 0))
    _ = mem0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and neither launch's write-backs touch it. -/
theorem mem3_main_arg1 (c : Dev nD) : mem3 m ρ c (Proc.devRef .tc main_arg1) = m ((c : Thread nD τ).loc main_arg1) :=
  calc mem3 m ρ c (Proc.devRef .tc main_arg1)
    _ = mem2 m ρ c (Proc.devRef .tc main_arg1) := mem3_of_ne m ρ c main_arg1 (by decide)
    _ = mem1 m ρ c (Proc.devRef .tc main_arg1) := (mem2_arr m ρ c 1).trans (((dat0 (ent1 m ρ) c).arrAt_in 1 rfl _).trans (A_eq0 (ent1 m ρ) c 1))
    _ = mem0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and neither launch's write-backs touch it. -/
theorem mem3_main_arg2 (c : Dev nD) : mem3 m ρ c (Proc.devRef .tc main_arg2) = m ((c : Thread nD τ).loc main_arg2) :=
  calc mem3 m ρ c (Proc.devRef .tc main_arg2)
    _ = mem2 m ρ c (Proc.devRef .tc main_arg2) := mem3_of_ne m ρ c main_arg2 (by decide)
    _ = mem1 m ρ c (Proc.devRef .tc main_arg2) := (mem2_arr m ρ c 2).trans (((dat0 (ent1 m ρ) c).arrAt_in 2 rfl _).trans (A_eq0 (ent1 m ρ) c 2))
    _ = mem0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and neither launch's write-backs touch it. -/
theorem mem3_main_arg3 (c : Dev nD) : mem3 m ρ c (Proc.devRef .tc main_arg3) = m ((c : Thread nD τ).loc main_arg3) :=
  calc mem3 m ρ c (Proc.devRef .tc main_arg3)
    _ = mem2 m ρ c (Proc.devRef .tc main_arg3) := mem3_of_ne m ρ c main_arg3 (by decide)
    _ = mem1 m ρ c (Proc.devRef .tc main_arg3) := mem2_of_ne m ρ c main_arg3 (by decide)
    _ = mem0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and neither launch's write-backs touch it. -/
theorem mem3_main_arg4 (c : Dev nD) : mem3 m ρ c (Proc.devRef .tc main_arg4) = m ((c : Thread nD τ).loc main_arg4) :=
  calc mem3 m ρ c (Proc.devRef .tc main_arg4)
    _ = mem2 m ρ c (Proc.devRef .tc main_arg4) := mem3_of_ne m ρ c main_arg4 (by decide)
    _ = mem1 m ρ c (Proc.devRef .tc main_arg4) := mem2_of_ne m ρ c main_arg4 (by decide)
    _ = mem0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` ends as launched: no host operation writes it and neither launch's write-backs touch it. -/
theorem mem3_main_arg5 (c : Dev nD) : mem3 m ρ c (Proc.devRef .tc main_arg5) = m ((c : Thread nD τ).loc main_arg5) :=
  calc mem3 m ρ c (Proc.devRef .tc main_arg5)
    _ = mem2 m ρ c (Proc.devRef .tc main_arg5) := mem3_of_ne m ρ c main_arg5 (by decide)
    _ = mem1 m ρ c (Proc.devRef .tc main_arg5) := mem2_of_ne m ρ c main_arg5 (by decide)
    _ = mem0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` ends as launched: no host operation writes it and neither launch's write-backs touch it. -/
theorem mem3_main_arg6 (c : Dev nD) : mem3 m ρ c (Proc.devRef .tc main_arg6) = m ((c : Thread nD τ).loc main_arg6) :=
  calc mem3 m ρ c (Proc.devRef .tc main_arg6)
    _ = mem2 m ρ c (Proc.devRef .tc main_arg6) := mem3_of_ne m ρ c main_arg6 (by decide)
    _ = mem1 m ρ c (Proc.devRef .tc main_arg6) := mem2_of_ne m ρ c main_arg6 (by decide)
    _ = mem0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` ends as launched: no host operation writes it and neither launch's write-backs touch it. -/
theorem mem3_main_arg7 (c : Dev nD) : mem3 m ρ c (Proc.devRef .tc main_arg7) = m ((c : Thread nD τ).loc main_arg7) :=
  calc mem3 m ρ c (Proc.devRef .tc main_arg7)
    _ = mem2 m ρ c (Proc.devRef .tc main_arg7) := mem3_of_ne m ρ c main_arg7 (by decide)
    _ = mem1 m ρ c (Proc.devRef .tc main_arg7) := mem2_of_ne m ρ c main_arg7 (by decide)
    _ = mem0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` ends as launched: no host operation writes it and neither launch's write-backs touch it. -/
theorem mem3_main_arg8 (c : Dev nD) : mem3 m ρ c (Proc.devRef .tc main_arg8) = m ((c : Thread nD τ).loc main_arg8) :=
  calc mem3 m ρ c (Proc.devRef .tc main_arg8)
    _ = mem2 m ρ c (Proc.devRef .tc main_arg8) := (mem3_arr m ρ c 3).trans (((dat1 (ent2 m ρ) c).arrAt_in 3 rfl _).trans (A_eq1 (ent2 m ρ) c 3))
    _ = mem1 m ρ c (Proc.devRef .tc main_arg8) := mem2_of_ne m ρ c main_arg8 (by decide)
    _ = mem0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

end Cert.Kernel.Fr

end
-- ==== Proof.K.Run.lean ====
/-
  The whole program's run: the host operations, the first launch, the second launch, as three segments over the thread
  state "every unscoped buffer at the boundary's contents (`mem0 … mem3`), the generator register at some state, nothing
  owed". Each launch splits its windows' arrays out of the unscoped buffers on entry and puts them back, at what its
  write-backs leave, on exit; the first launch's invariant also carries its scratch buffer from point to point. Every
  weakly fair execution terminates with every unscoped buffer at `mem3`: the arguments as launched, the result array at
  what the second launch's write-backs leave.
-/
import proofs.«170476_g15874199126456_cont_week2b_1129_3_alg».proof.Proof.K.Mem

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No launch has a prefetched table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (ent1 m ρ) c
  | ⟨1, _⟩ => fun c => dat1 (ent2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (mem3 m ρ c) ∗ ∃ r, prngReg c r)

/-! ## The launches as segments -/

set_option backward.isDefEq.respectTransparency.types false in
/-- THE FIRST LAUNCH over the thread state: entered from every unscoped buffer at `mem1`, left at `mem2`. Its invariant
    starts as what the launch hands over and ends, after the last point, giving the same back (the scratch's contents
    forgotten). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent1 m ρ) c).loose
  hwaits := Pipeline.hwaits_of_owed_zero _ _ _ _ L lv 0 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (ent1 m ρ c) (ent2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `mem2`, left at `mem3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent2 m ρ) c).loose
  hwaits := Pipeline.hwaits_of_owed_zero _ _ _ _ L lv 1 fun _ _ => rfl
  pre c := iprop(StableHlo.held (c : Thread nD τ) (Pipeline.ucRefs τ sig) (mem2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ent2 m ρ c) (ent3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's three segments in order. -/
abbrev segs : List (Pipeline.Seg (pcfgs (F := F)) adm (pdats m ρ) () defs₀ 𝒱₀ L lv) :=
  [ .host (hseg hostOps0 hostOps0_sub hostOps0_fresh' (mem0 m ρ)),
    .region (reg0 m ρ),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of the program terminates,
    nothing faulting, and every final state has the result array at `mem3`'s and the nine argument arrays as launched. -/
theorem run_main : θ_run defs (onTc (τ := τ) (main (F := F))) ⟨m, fun _ => 0, ρ⟩ (fun r => ∀ c : Dev nD,
      r.2.mem ((c.tc : Thread nD τ).loc main_v5) = mem3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem3 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem3 m ρ c) s')
      isplitl [Hh] <;> iassumption)
    (hQ := fun s h c =>
      ⟨h c _ (mem_uc main_v5 (by decide)),
       (h c _ (mem_uc main_arg0 (by decide))).trans (mem3_main_arg0 m ρ c),
       (h c _ (mem_uc main_arg1 (by decide))).trans (mem3_main_arg1 m ρ c),
       (h c _ (mem_uc main_arg2 (by decide))).trans (mem3_main_arg2 m ρ c),
       (h c _ (mem_uc main_arg3 (by decide))).trans (mem3_main_arg3 m ρ c),
       (h c _ (mem_uc main_arg4 (by decide))).trans (mem3_main_arg4 m ρ c),
       (h c _ (mem_uc main_arg5 (by decide))).trans (mem3_main_arg5 m ρ c),
       (h c _ (mem_uc main_arg6 (by decide))).trans (mem3_main_arg6 m ρ c),
       (h c _ (mem_uc main_arg7 (by decide))).trans (mem3_main_arg7 m ρ c),
       (h c _ (mem_uc main_arg8 (by decide))).trans (mem3_main_arg8 m ρ c)⟩)

/-- THE FRAME, at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Fr

end
-- ==== Proof.KI.Stage1.lean ====
/-
  The first launch (the hidden layer and the joined heads) at a parameter `V`, the buffer contents when it is entered.

  Its grid has 25 points; point t handles rows 400·t … 400·t+399. Five input windows: a row block of the adjacency
  (window 0) and four whole arrays whose block never moves — the features (1), the first weight matrix (2), the 1 × 128
  bias (3), the joined 128 × 128 head weights (4) —; one output window (5), a 400 × 128 row block; and one scratch
  buffer of 10000 × 128 the kernel keeps between points. At the FIRST point the body stores the projected features
  `k0_pay1 x W1` (all of them) into the scratch; at EVERY point it then stores into the output block the value
  `k0_pay2` of the adjacency block, the scratch, the bias and the head weights. So from the end of the first point on
  the scratch holds the projected features (`pfeat`), and each point's output block is `k0_pay2` over that same array.
-/
import proofs.«170476_g15874199126456_cont_week2b_1129_3_alg».proof.Proof.Gen.KernelIdeal.Launch
import proofs.«170476_g15874199126456_cont_week2b_1129_3_alg».proof.Proof.Gen.KernelIdeal.Skeleton
import proofs.«170476_g15874199126456_cont_week2b_1129_3_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched its block
    index has not moved since the point before. One lemma per input window (0 to 4). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid position -/

/-- The body's one branch: taken when the grid coordinate is zero. -/
abbrev cond0 (i : grid0.Coords) : Prop := (Scalar.cmpi .ne (Scalar.extui (Scalar.cmpi .eq (BitVec.ofNat 32 (i 0).val) 0#32)) 0#32) = 1#1
/-- It is taken at the first point only (decided over the 25 points). -/
theorem hcond0 : ∀ t : Fin cfg0.N, cond0 (grid0.coords t) ↔ t.val = 0 :=
  (by decide +kernel : ∀ t : Fin grid0.N, cond0 (grid0.coords t) ↔ t.val = 0)

/-! ## The body's accesses: each the whole of its buffer -/

abbrev qAdj : Rect S400x10000 := Rect.unit (s := S400x10000) ![0, 0] S400x10000.size inb_S400x10000_S400x10000_0_0
abbrev qWide : Rect S10000x128 := Rect.unit (s := S10000x128) ![0, 0] S10000x128.size inb_S10000x128_S10000x128_0_0
abbrev qSq : Rect S128x128 := Rect.unit (s := S128x128) ![0, 0] S128x128.size inb_S128x128_S128x128_0_0
abbrev qBias : Rect S1x128 := Rect.unit (s := S1x128) ![0, 0] S1x128.size inb_S1x128_S1x128_0_0
abbrev qMid : Rect S400x128 := Rect.unit (s := S400x128) ![0, 0] S400x128.size inb_S400x128_S400x128_0_0

/-- The offsets of every access are zero on both axes. -/
theorem offs_zero : (![0, 0] : Fin 2 → Nat) = fun _ => 0 := by
  funext a; match a with | ⟨0, _⟩ => rfl | ⟨1, _⟩ => rfl

theorem cover_wide (p0 : Vec F S10000x128 .f32) (y : S10000x128.Idx) :
    ∃ pc ∈ ([⟨qWide, p0⟩] : List (View.Piece (Elt F) S10000x128 .f32)), y ∈ pc.1.set :=
  ⟨_, List.mem_singleton_self _, View.mem_set_unit_zero (S := S10000x128) offs_zero inb_S10000x128_S10000x128_0_0 y⟩
theorem cover_mid (p0 : Vec F S400x128 .f32) (y : S400x128.Idx) :
    ∃ pc ∈ ([⟨qMid, p0⟩] : List (View.Piece (Elt F) S400x128 .f32)), y ∈ pc.1.set :=
  ⟨_, List.mem_singleton_self _, View.mem_set_unit_zero (S := S400x128) offs_zero inb_S400x128_S400x128_0_0 y⟩

/-! ## The body's triples, one per side of the branch -/

set_option maxHeartbeats 2000000 in
/-- AT THE FIRST POINT (the branch taken): on whole buffers, the inputs' at contents `x0 … x4`, the output's and the
    scratch at anything, the body runs to the end leaving the inputs' as they were, the scratch at the projected
    features `k0_pay1 x1 x2` and the output's at `k0_pay2` over them. -/
theorem sound_kernel0_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .f32) (harg6 : arg6.IsWhole)
    (arg7 : Memref sig .tc .vmem S10000x128 .f32) (harg7 : arg7.IsWhole)
    (x0 : Vec F S400x10000 .f32) (x1 : Vec F S10000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 (k0_pay1 x1 x2) x3 x4)
            ∗ owns (c : Thread nD τ) arg7 fullShare (k0_pay1 x1 x2)) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_mid _), View.canon_unit_zero (S := S400x128) offs_zero]
    simp only [View.readAt_eq_ld, View.readCov_unit_zero (S := S10000x128) _ offs_zero, View.ld_unit_zero (S := S400x10000) offs_zero,
      View.ld_unit_zero (S := S10000x128) offs_zero, View.ld_unit_zero (S := S128x128) offs_zero, View.ld_unit_zero (S := S1x128) offs_zero]
  iexists _; isplitr
  swap; · iexact H6
  ipureintro
  rw [View.read_writes_eq_canon _ _ _ (cover_wide _), View.canon_unit_zero (S := S10000x128) offs_zero]
  simp only [View.readAt_eq_ld, View.ld_unit_zero (S := S10000x128) offs_zero, View.ld_unit_zero (S := S128x128) offs_zero]

set_option maxHeartbeats 2000000 in
/-- AT EVERY LATER POINT (the branch not taken): the scratch at contents `xs` is read, not written; the output's buffer
    ends at `k0_pay2` over it. -/
theorem sound_kernel0_later (c : Dev nD) (E : Set ℕ) (i : grid0.Coords) (hc : ¬cond0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .f32) (harg6 : arg6.IsWhole)
    (arg7 : Memref sig .tc .vmem S10000x128 .f32) (harg7 : arg7.IsWhole)
    (x0 : Vec F S400x10000 .f32) (x1 : Vec F S10000x128 .f32) (x2 : Vec F S128x128 .f32) (x3 : Vec F S1x128 .f32) (x4 : Vec F S128x128 .f32)
    (xs : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 xs x3 x4)
            ∗ owns (c : Thread nD τ) arg7 fullShare xs) -∗ K ⟨⟩))
      ⊢ wp frame (wpE (defs₀ (F := F)) Variants.none c none) E (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_mid _), View.canon_unit_zero (S := S400x128) offs_zero]
    simp only [View.readAt_eq_ld, View.ld_unit_zero (S := S400x10000) offs_zero,
      View.ld_unit_zero (S := S10000x128) offs_zero, View.ld_unit_zero (S := S128x128) offs_zero, View.ld_unit_zero (S := S1x128) offs_zero]
  iexists f6; isplitr; · ipureintro; rfl
  iexact H6

/-! ## What the scratch holds from the end of the first point on -/

/-- The grid's first point. -/
abbrev t₀ : Fin cfg0.N := ⟨0, lt_of_lt_of_eq (by decide : 0 < 25) N_0.symm⟩

/-- The projected features: what the first point computes from the features' and the first weights' blocks there
    (each the whole of its array) and stores into the scratch. -/
def pfeat (c : Dev nD) : Vec F S10000x128 .f32 := k0_pay1 (iblk0 V c 1 t₀) (iblk0 V c 2 t₀)

/-- The scratch buffer as the kernel is handed it. -/
abbrev scr : Memref sig .tc .vmem S10000x128 .f32 := Memref.whole cc0_scratch0

/-- The second launch's own buffers, each at some contents: they ride through the first launch untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the kernel beside its windows: the scratch at some contents, the other launch's buffers,
    the generator register at some state. -/
theorem PhiA0_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; rfl

/-- The invariant between points: before the first point what the launch hands over; afterwards the same with the
    scratch at the projected features. -/
def PhiS (c : Dev nD) : ℕ → sProp 𝕄
  | 0 => Pipeline.ΦA spec0 c
  | _ + 1 => iprop((owns (c : Thread nD τ) scr fullShare (pfeat V c) ∗ others c) ∗ (∃ r, prngReg c r))

theorem PhiS_succ (c : Dev nD) (n : ℕ) :
    PhiS V c (n + 1) = iprop((owns (c : Thread nD τ) scr fullShare (pfeat V c) ∗ others c) ∗ (∃ r, prngReg c r)) := rfl

/-- After any point the invariant gives back what the launch handed over: the scratch's contents are forgotten. -/
theorem PhiS_out (c : Dev nD) (n : ℕ) : PhiS V c (n + 1) ⊢ Pipeline.ΦA spec0 c := by
  rw [PhiS_succ, PhiA0_eq]
  iintro ⟨⟨HS, Ho⟩, Hg⟩
  isplitl [HS Ho]
  · isplitl [HS]
    · iexists _; iexact HS
    iexact Ho
  iexact Hg

/-! ## The launch's proof data -/

/-- The proof data on core `c`: the arrays as the launch finds them; after the body at point `t` each input's buffer
    at its block and the output's at `k0_pay2` of the adjacency block, the projected features, the bias and the head
    weights; between points the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (pfeat V c) (iblk0 V c 3 t) (iblk0 V c 4 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 0 t) (pfeat V c) (iblk0 V c 3 t) (iblk0 V c 4 t) := by dsimp only [dat0]

theorem Phi0_castSucc (c : Dev nD) (t : Fin cfg0.N) : (dat0 V c).Φ t.castSucc = PhiS V c t.val := by
  dsimp only [dat0]; simp only [Fin.coe_castSucc]
theorem Phi0_succ (c : Dev nD) (t : Fin cfg0.N) : (dat0 V c).Φ t.succ = PhiS V c (t.val + 1) := rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks; at the first point the scratch is at anything and
    ends at the projected features, at a later point it is at the projected features and stays so. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, Phi0_castSucc, Phi0_succ, PhiS_succ]
  by_cases hz : t.val = 0
  · obtain rfl : t = t₀ := Fin.ext hz
    rw [show PhiS V c (t₀ : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_kernel0_first c Set.univ _ ((hcond0 t₀).mpr rfl) _ _ _ _ _ _ _ _ _ _ _ _ _ _
      (iblk0 V c 0 t₀) (iblk0 V c 1 t₀) (iblk0 V c 2 t₀) (iblk0 V c 3 t₀) (iblk0 V c 4 t₀) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ := Nat.exists_eq_succ_of_ne_zero hz
    rw [hn, PhiS_succ]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (sound_kernel0_later c Set.univ _ (fun h => hz ((hcond0 t).mp h)) _ _ _ _ _ _ _ _ _ _ _ _ _ _
      (iblk0 V c 0 t) (iblk0 V c 1 t) (iblk0 V c 2 t) (iblk0 V c 3 t) (iblk0 V c 4 t) (pfeat V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

/-- The invariant after the last point gives back what the launch handed over. -/
theorem Phi0_last (c : Dev nD) : (dat0 V c).Φ (Fin.last cfg0.N) ⊢ Pipeline.ΦA spec0 c := by
  have h : (Fin.last cfg0.N).val = 24 + 1 := by rw [Fin.val_last]; exact N_0
  rw [show (dat0 V c).Φ (Fin.last cfg0.N) = PhiS V c (Fin.last cfg0.N).val from rfl, h]
  exact PhiS_out V c 24

end Cert.KernelIdeal.Fr

end
-- ==== Proof.KI.Stage2.lean ====
/-
  The second launch (the sampling stage) at a parameter `V`, the buffer contents when it is entered.

  Its grid has 25 points; point t handles rows 400·t … 400·t+399. Four input windows: a row block of the adjacency
  (window 0), the whole 10000 × 128 array the first launch wrote (window 1), the 1 × 128 joined bias (window 2), a row
  block of the noise (window 3); one output window (4), the row block of the result. The body stores once, the whole
  output block, a pure function `k1_pay1` of the four input blocks; so after the body the output's buffer is that
  value (`zblk`), whatever it held before, and the inputs' buffers are untouched.
-/
import proofs.«170476_g15874199126456_cont_week2b_1129_3_alg».proof.Proof.Gen.KernelIdeal.Launch
import proofs.«170476_g15874199126456_cont_week2b_1129_3_alg».proof.Proof.Gen.KernelIdeal.Skeleton
import proofs.«170476_g15874199126456_cont_week2b_1129_3_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched its block
    index has not moved since the point before. One lemma per input window (0 to 3). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev rAdj : Rect S400x10000 := Rect.unit (s := S400x10000) ![0, 0] S400x10000.size inb_S400x10000_S400x10000_0_0
abbrev rWide : Rect S10000x128 := Rect.unit (s := S10000x128) ![0, 0] S10000x128.size inb_S10000x128_S10000x128_0_0
abbrev rBias : Rect S1x128 := Rect.unit (s := S1x128) ![0, 0] S1x128.size inb_S1x128_S1x128_0_0
abbrev rLat : Rect S400x64 := Rect.unit (s := S400x64) ![0, 0] S400x64.size inb_S400x64_S400x64_0_0

/-! ## What the body leaves in the output window's buffer -/

/-- The output buffer after the body, from the input blocks: its one store, of the whole block. -/
def zblk (x0 : Vec F S400x10000 .f32) (x1 : Vec F S10000x128 .f32) (x2 : Vec F S1x128 .f32) (x3 : Vec F S400x64 .f32) : Vec F S400x64 .f32 :=
  View.canon [⟨rLat, k1_pay1 (View.ld x0 rAdj) (View.ld x1 rWide) (View.ld x2 rBias) (View.ld x3 rLat)⟩]

/-- The one store covers the buffer. -/
theorem zcover (p0 : Vec F S400x64 .f32) (y : S400x64.Idx) :
    ∃ pc ∈ ([⟨rLat, p0⟩] : List (View.Piece (Elt F) S400x64 .f32)), y ∈ pc.1.set :=
  View.cover_of_tiled [⟨rLat, p0⟩] S400x64.size (by rfl) y

/-- The offsets of every access are zero on both axes. -/
theorem offs_zero1 : (![0, 0] : Fin 2 → Nat) = fun _ => 0 := by
  funext a; match a with | ⟨0, _⟩ => rfl | ⟨1, _⟩ => rfl

/-- The one store is of the whole block and every load of a whole buffer: the output buffer ends at the payload itself. -/
theorem zblk_eq (x0 : Vec F S400x10000 .f32) (x1 : Vec F S10000x128 .f32) (x2 : Vec F S1x128 .f32) (x3 : Vec F S400x64 .f32) :
    zblk x0 x1 x2 x3 = k1_pay1 x0 x1 x2 x3 := by
  unfold zblk
  rw [View.canon_unit_zero (S := S400x64) offs_zero1]
  simp only [View.ld_unit_zero (S := S400x10000) offs_zero1, View.ld_unit_zero (S := S10000x128) offs_zero1,
    View.ld_unit_zero (S := S1x128) offs_zero1, View.ld_unit_zero (S := S400x64) offs_zero1]

/-! ## The body's triple -/

set_option maxHeartbeats 1000000 in
/-- On whole buffers, the inputs' at contents `x0 … x3` and the output's at anything, the body runs to the end leaving the
    inputs' as they were and the output's at `zblk x0 x1 x2 x3`. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S400x64 .f32) (harg4 : arg4.IsWhole)
    (arg5 : Memref sig .tc .vmem S400x64 .f32) (harg5 : arg5.IsWhole)
    (x0 : Vec F S400x10000 .f32) (x1 : Vec F S10000x128 .f32) (x2 : Vec F S1x128 .f32) (x3 : Vec F S400x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (zblk x0 x1 x2 x3)) -∗ K ⟨⟩))
      ⊢ wp frame (wpE (defs₀ (F := F)) Variants.none c none) E (cc1__stage2_kernel i arg1 harg1 arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (zcover _)

/-! ## The launch's proof data -/

/-- The proof data on core `c`: the arrays as the launch finds them; after the body at point `t` each input's buffer at
    its block and the output's at `zblk` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => zblk (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = zblk (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Mem.lean ====
/-
  What the unscoped buffers hold at each boundary of the program, as a fold from the launch memory: at launch
  (`mem0`); after the four host operations that join the head weights and biases and reshape the biases (`mem1`, the first
  launch's entry contents `ent1`); after the first launch, its output array at what its write-backs leave (`mem2`, the
  second launch's entry contents `ent2`); after the second launch (`mem3`). No host operation and no write-back touches
  an argument, so each argument's buffer walks back through the fold to its launch contents.
-/
import proofs.«170476_g15874199126456_cont_week2b_1129_3_alg».proof.Proof.KI.Stage1
import proofs.«170476_g15874199126456_cont_week2b_1129_3_alg».proof.Proof.KI.Stage2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev mem0 : Dev nD → Valuation τ sig (Elt F) := fun c b => (s₀ m ρ).mem ((c : Dev nD), b)
/-- After the host operations (the first launch's entry). -/
abbrev mem1 : Dev nD → Valuation τ sig (Elt F) := fun c => StableHlo.after hostOps0 (mem0 m ρ c)
/-- The same read at the TensorCore's references. -/
abbrev ent1 : (c : Dev nD) → (b : Ref sig .tc) → Buf (Elt F) ((c : Thread nD τ).loc b) := fun c b => mem1 m ρ c b
/-- At the first launch's exit: its arrays at what the pipeline leaves, every other buffer as entered. -/
def mem2 (c : Dev nD) : Valuation τ sig (Elt F) :=
  Pipeline.withArrays spec0 c (mem1 m ρ c) fun w => (dat0 (ent1 m ρ) c).arrAt w cfg0.N
theorem mem2_arr (c : Dev nD) (w : Fin cfg0.W) :
    mem2 m ρ c (Proc.devRef .tc (Pipeline.arrRef spec0 w)) = (dat0 (ent1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
/-- The same read at the TensorCore's references (the second launch's entry). -/
abbrev ent2 : (c : Dev nD) → (b : Ref sig .tc) → Buf (Elt F) ((c : Thread nD τ).loc b) := fun c b => mem2 m ρ c b
theorem hF0 (c : Dev nD) (w : Fin cfg0.W) : (dat0 (ent1 m ρ) c).arrAt w cfg0.N = ent2 m ρ c (Pipeline.arrRef spec0 w) :=
  (mem2_arr m ρ c w).symm
theorem hrest0 (c : Dev nD) : ∀ b, b ∉ Finset.univ.image (Pipeline.arrRef spec0) → ent2 m ρ c b = ent1 m ρ c b :=
  fun b hb => mem2_of_ne m ρ c b fun w e => hb (Finset.mem_image.mpr ⟨w, Finset.mem_univ _, e⟩)

/-- At the second launch's exit. -/
def mem3 (c : Dev nD) : Valuation τ sig (Elt F) :=
  Pipeline.withArrays spec1 c (mem2 m ρ c) fun w => (dat1 (ent2 m ρ) c).arrAt w cfg1.N
theorem mem3_arr (c : Dev nD) (w : Fin cfg1.W) :
    mem3 m ρ c (Proc.devRef .tc (Pipeline.arrRef spec1 w)) = (dat1 (ent2 m ρ) c).arrAt w cfg1.N := by
  unfold mem3; exact Pipeline.withArrays_arr spec1 launch1.win.arr_inj c _ _ w
theorem mem3_of_ne (c : Dev nD) (b : Ref sig .tc) (hb : ∀ w, Pipeline.arrRef spec1 w ≠ b) :
    mem3 m ρ c (Proc.devRef .tc b) = mem2 m ρ c (Proc.devRef .tc b) := by
  unfold mem3; exact Pipeline.withArrays_of_ne spec1 c _ _ b hb
/-- The same read at the TensorCore's references (the second launch's exit). -/
abbrev ent3 : (c : Dev nD) → (b : Ref sig .tc) → Buf (Elt F) ((c : Thread nD τ).loc b) := fun c b => mem3 m ρ c b
theorem hF1 (c : Dev nD) (w : Fin cfg1.W) : (dat1 (ent2 m ρ) c).arrAt w cfg1.N = ent3 m ρ c (Pipeline.arrRef spec1 w) :=
  (mem3_arr m ρ c w).symm
theorem hrest1 (c : Dev nD) : ∀ b, b ∉ Finset.univ.image (Pipeline.arrRef spec1) → ent3 m ρ c b = ent2 m ρ c b :=
  fun b hb => mem3_of_ne m ρ c b fun w e => hb (Finset.mem_image.mpr ⟨w, Finset.mem_univ _, e⟩)

/-! ## The arguments end as launched -/

/-- `main_arg0` ends as launched: no host operation writes it and neither launch's write-backs touch it. -/
theorem mem3_main_arg0 (c : Dev nD) : mem3 m ρ c (Proc.devRef .tc main_arg0) = m ((c : Thread nD τ).loc main_arg0) :=
  calc mem3 m ρ c (Proc.devRef .tc main_arg0)
    _ = mem2 m ρ c (Proc.devRef .tc main_arg0) := (mem3_arr m ρ c 0).trans (((dat1 (ent2 m ρ) c).arrAt_in 0 rfl _).trans (A_eq1 (ent2 m ρ) c 0))
    _ = mem1 m ρ c (Proc.devRef .tc main_arg0) := (mem2_arr m ρ c 0).trans (((dat0 (ent1 m ρ) c).arrAt_in 0 rfl _).trans (A_eq0 (ent1 m ρ) c 0))
    _ = mem0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and neither launch's write-backs touch it. -/
theorem mem3_main_arg1 (c : Dev nD) : mem3 m ρ c (Proc.devRef .tc main_arg1) = m ((c : Thread nD τ).loc main_arg1) :=
  calc mem3 m ρ c (Proc.devRef .tc main_arg1)
    _ = mem2 m ρ c (Proc.devRef .tc main_arg1) := mem3_of_ne m ρ c main_arg1 (by decide)
    _ = mem1 m ρ c (Proc.devRef .tc main_arg1) := (mem2_arr m ρ c 1).trans (((dat0 (ent1 m ρ) c).arrAt_in 1 rfl _).trans (A_eq0 (ent1 m ρ) c 1))
    _ = mem0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and neither launch's write-backs touch it. -/
theorem mem3_main_arg2 (c : Dev nD) : mem3 m ρ c (Proc.devRef .tc main_arg2) = m ((c : Thread nD τ).loc main_arg2) :=
  calc mem3 m ρ c (Proc.devRef .tc main_arg2)
    _ = mem2 m ρ c (Proc.devRef .tc main_arg2) := mem3_of_ne m ρ c main_arg2 (by decide)
    _ = mem1 m ρ c (Proc.devRef .tc main_arg2) := (mem2_arr m ρ c 2).trans (((dat0 (ent1 m ρ) c).arrAt_in 2 rfl _).trans (A_eq0 (ent1 m ρ) c 2))
    _ = mem0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and neither launch's write-backs touch it. -/
theorem mem3_main_arg3 (c : Dev nD) : mem3 m ρ c (Proc.devRef .tc main_arg3) = m ((c : Thread nD τ).loc main_arg3) :=
  calc mem3 m ρ c (Proc.devRef .tc main_arg3)
    _ = mem2 m ρ c (Proc.devRef .tc main_arg3) := mem3_of_ne m ρ c main_arg3 (by decide)
    _ = mem1 m ρ c (Proc.devRef .tc main_arg3) := mem2_of_ne m ρ c main_arg3 (by decide)
    _ = mem0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and neither launch's write-backs touch it. -/
theorem mem3_main_arg4 (c : Dev nD) : mem3 m ρ c (Proc.devRef .tc main_arg4) = m ((c : Thread nD τ).loc main_arg4) :=
  calc mem3 m ρ c (Proc.devRef .tc main_arg4)
    _ = mem2 m ρ c (Proc.devRef .tc main_arg4) := mem3_of_ne m ρ c main_arg4 (by decide)
    _ = mem1 m ρ c (Proc.devRef .tc main_arg4) := mem2_of_ne m ρ c main_arg4 (by decide)
    _ = mem0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` ends as launched: no host operation writes it and neither launch's write-backs touch it. -/
theorem mem3_main_arg5 (c : Dev nD) : mem3 m ρ c (Proc.devRef .tc main_arg5) = m ((c : Thread nD τ).loc main_arg5) :=
  calc mem3 m ρ c (Proc.devRef .tc main_arg5)
    _ = mem2 m ρ c (Proc.devRef .tc main_arg5) := mem3_of_ne m ρ c main_arg5 (by decide)
    _ = mem1 m ρ c (Proc.devRef .tc main_arg5) := mem2_of_ne m ρ c main_arg5 (by decide)
    _ = mem0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` ends as launched: no host operation writes it and neither launch's write-backs touch it. -/
theorem mem3_main_arg6 (c : Dev nD) : mem3 m ρ c (Proc.devRef .tc main_arg6) = m ((c : Thread nD τ).loc main_arg6) :=
  calc mem3 m ρ c (Proc.devRef .tc main_arg6)
    _ = mem2 m ρ c (Proc.devRef .tc main_arg6) := mem3_of_ne m ρ c main_arg6 (by decide)
    _ = mem1 m ρ c (Proc.devRef .tc main_arg6) := mem2_of_ne m ρ c main_arg6 (by decide)
    _ = mem0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` ends as launched: no host operation writes it and neither launch's write-backs touch it. -/
theorem mem3_main_arg7 (c : Dev nD) : mem3 m ρ c (Proc.devRef .tc main_arg7) = m ((c : Thread nD τ).loc main_arg7) :=
  calc mem3 m ρ c (Proc.devRef .tc main_arg7)
    _ = mem2 m ρ c (Proc.devRef .tc main_arg7) := mem3_of_ne m ρ c main_arg7 (by decide)
    _ = mem1 m ρ c (Proc.devRef .tc main_arg7) := mem2_of_ne m ρ c main_arg7 (by decide)
    _ = mem0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` ends as launched: no host operation writes it and neither launch's write-backs touch it. -/
theorem mem3_main_arg8 (c : Dev nD) : mem3 m ρ c (Proc.devRef .tc main_arg8) = m ((c : Thread nD τ).loc main_arg8) :=
  calc mem3 m ρ c (Proc.devRef .tc main_arg8)
    _ = mem2 m ρ c (Proc.devRef .tc main_arg8) := (mem3_arr m ρ c 3).trans (((dat1 (ent2 m ρ) c).arrAt_in 3 rfl _).trans (A_eq1 (ent2 m ρ) c 3))
    _ = mem1 m ρ c (Proc.devRef .tc main_arg8) := mem2_of_ne m ρ c main_arg8 (by decide)
    _ = mem0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

end Cert.KernelIdeal.Fr

end
-- ==== Proof.KI.Run.lean ====
/-
  The whole program's run: the host operations, the first launch, the second launch, as three segments over the thread
  state "every unscoped buffer at the boundary's contents (`mem0 … mem3`), the generator register at some state, nothing
  owed". Each launch splits its windows' arrays out of the unscoped buffers on entry and puts them back, at what its
  write-backs leave, on exit; the first launch's invariant also carries its scratch buffer from point to point. Every
  weakly fair execution terminates with every unscoped buffer at `mem3`: the arguments as launched, the result array at
  what the second launch's write-backs leave.
-/
import proofs.«170476_g15874199126456_cont_week2b_1129_3_alg».proof.Proof.KI.Mem

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No launch has a prefetched table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (ent1 m ρ) c
  | ⟨1, _⟩ => fun c => dat1 (ent2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (mem3 m ρ c) ∗ ∃ r, prngReg c r)

/-! ## The launches as segments -/

set_option backward.isDefEq.respectTransparency.types false in
/-- THE FIRST LAUNCH over the thread state: entered from every unscoped buffer at `mem1`, left at `mem2`. Its invariant
    starts as what the launch hands over and ends, after the last point, giving the same back (the scratch's contents
    forgotten). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent1 m ρ) c).loose
  hwaits := Pipeline.hwaits_of_owed_zero _ _ _ _ L lv 0 fun _ _ => rfl
  pre c := iprop(StableHlo.held (c : Thread nD τ) (Pipeline.ucRefs τ sig) (mem1 m ρ c) ∗ R c)
  post c := iprop(StableHlo.held (c : Thread nD τ) (Pipeline.ucRefs τ sig) (mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (ent1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (ent1 m ρ c) (ent2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `mem2`, left at `mem3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent2 m ρ) c).loose
  hwaits := Pipeline.hwaits_of_owed_zero _ _ _ _ L lv 1 fun _ _ => rfl
  pre c := iprop(StableHlo.held (c : Thread nD τ) (Pipeline.ucRefs τ sig) (mem2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ent2 m ρ c) (ent3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's three segments in order. -/
abbrev segs : List (Pipeline.Seg (pcfgs (F := F)) adm (pdats m ρ) () defs₀ 𝒱₀ L lv) :=
  [ .host (hseg hostOps0 hostOps0_sub hostOps0_fresh' (mem0 m ρ)),
    .region (reg0 m ρ),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of the program terminates,
    nothing faulting, and every final state has the result array at `mem3`'s and the nine argument arrays as launched. -/
theorem run_main : θ_run defs (onTc (τ := τ) (main (F := F))) ⟨m, fun _ => 0, ρ⟩ (fun r => ∀ c : Dev nD,
      r.2.mem ((c.tc : Thread nD τ).loc main_v5) = mem3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem3 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem3 m ρ c) s')
      isplitl [Hh] <;> iassumption)
    (hQ := fun s h c =>
      ⟨h c _ (mem_uc main_v5 (by decide)),
       (h c _ (mem_uc main_arg0 (by decide))).trans (mem3_main_arg0 m ρ c),
       (h c _ (mem_uc main_arg1 (by decide))).trans (mem3_main_arg1 m ρ c),
       (h c _ (mem_uc main_arg2 (by decide))).trans (mem3_main_arg2 m ρ c),
       (h c _ (mem_uc main_arg3 (by decide))).trans (mem3_main_arg3 m ρ c),
       (h c _ (mem_uc main_arg4 (by decide))).trans (mem3_main_arg4 m ρ c),
       (h c _ (mem_uc main_arg5 (by decide))).trans (mem3_main_arg5 m ρ c),
       (h c _ (mem_uc main_arg6 (by decide))).trans (mem3_main_arg6 m ρ c),
       (h c _ (mem_uc main_arg7 (by decide))).trans (mem3_main_arg7 m ρ c),
       (h c _ (mem_uc main_arg8 (by decide))).trans (mem3_main_arg8 m ρ c)⟩)

/-- THE FRAME, at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Fr

end
-- ==== Proof.Spec.lean ====
/-
  The mathematics both programs compute, index by index on the extended reals, as ONE function of the nine argument arrays.

  With adjacency `adj` (10000 × 10000), features `x` (10000 × 128), weights `W1` (128 × 128), `Wmu`, `Wlv` (128 × 64),
  biases `b1` (128), `bmu`, `blv` (64) and noise `eps` (10000 × 64):

    proj r k   = Σ_a x[r,a] · W1[a,k]                              (the projected features  x · W1)
    hidden i k = max (Σ_r adj[i,r] · proj r k + b1[k]) 0           (one graph-convolution layer with ReLU)
    head W b i j = Σ_r adj[i,r] · (Σ_k hidden r k · W[k,j]) + b[j] (a second graph convolution, one per head)
    sample i j = head Wmu bmu i j + exp (½ · head Wlv blv i j) · eps[i,j]

  Every sum is a finite sum in the extended reals in index order; no law beyond the definitions is used, so nothing here
  needs the inputs to be finite.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Mat (n0 n1 : Nat) : Type := FVec Ideal (⟨2, ![n0, n1]⟩ : Shape) .f32
/-- A rank-1 array of extended reals. -/
abbrev Row (n : Nat) : Type := FVec Ideal (⟨1, ![n]⟩ : Shape) .f32

/-- The float zero the ReLU compares against, as the programs spell it. -/
abbrev zeroLit : EReal := Ideal.ofBits .f32 0x00000000#32
/-- The factor one half of the standard deviation, as the programs spell it. -/
abbrev halfLit : EReal := Ideal.ofBits .f32 0x3F000000#32

/-- The projected features `x · W1` at row `r`, column `k`. -/
def proj (x : Mat 10000 128) (W1 : Mat 128 128) (r : Fin 10000) (k : Fin 128) : EReal :=
  ∑ a : Fin 128, x (ix2 r a) * W1 (ix2 a k)

/-- The hidden layer `ReLU (adj · (x · W1) + b1)` at node `i`, unit `k`. -/
def hidden (adj : Mat 10000 10000) (x : Mat 10000 128) (W1 : Mat 128 128) (b1 : Row 128) (i : Fin 10000) (k : Fin 128) : EReal :=
  max ((∑ r : Fin 10000, adj (ix2 i r) * proj x W1 r k) + b1 (ix1 k)) zeroLit

/-- One output head `adj · (hidden · W) + b` at node `i`, latent coordinate `j`. -/
def head (adj : Mat 10000 10000) (x : Mat 10000 128) (W1 : Mat 128 128) (b1 : Row 128) (W : Mat 128 64) (b : Row 64)
    (i : Fin 10000) (j : Fin 64) : EReal :=
  (∑ r : Fin 10000, adj (ix2 i r) * (∑ k : Fin 128, hidden adj x W1 b1 r k * W (ix2 k j))) + b (ix1 j)

/-- The reparameterised sample `mu + exp (½ · logvar) · eps`, as one function of the nine arguments. -/
def sample (adj : Mat 10000 10000) (x : Mat 10000 128) (W1 : Mat 128 128) (b1 : Row 128) (Wmu : Mat 128 64) (bmu : Row 64)
    (Wlv : Mat 128 64) (blv : Row 64) (eps : Mat 10000 64) : Mat 10000 64 :=
  fun j => head adj x W1 b1 Wmu bmu (j 0) (j 1)
    + Ideal.exp (halfLit * head adj x W1 b1 Wlv blv (j 0) (j 1)) * eps (ix2 (j 0) (j 1))

end Cert.Spec

end
-- ==== Proof.Joined.lean ====
/-
  The kernel's arrangement of the same mathematics, and that it is the specification.

  The kernel joins the two heads' weights side by side into one 128 × 128 matrix (columns 0 … 63 the mean head's,
  64 … 127 the log-variance head's) and the two biases into one row of 128, computes in its first stage
  `stage1 = hidden · joined weights` (10000 × 128) and in its second, per row, `pre2 = adj · stage1 + joined bias`, whose
  low half is the mean and whose high half the log-variance: `stage2 = low + exp (½ · high) · eps`. Column `n` of a
  product with the joined matrix is the product with the column's own head, so `stage2` over `stage1` is the
  specification's `sample`; every sum keeps its order, no law of arithmetic is used.
-/
import proofs.«170476_g15874199126456_cont_week2b_1129_3_alg».proof.Proof.Spec

noncomputable section

namespace Cert.Spec

open Idealize.ShloMosaic Idealize.ShloMosaic.ValueIdx
open scoped BigOperators

/-- Column `j` of the mean head inside the joined arrays. -/
def lo (j : Fin 64) : Fin 128 := ⟨j.val, by omega⟩
/-- Column `j` of the log-variance head inside the joined arrays. -/
def hi (j : Fin 64) : Fin 128 := ⟨j.val + 64, by omega⟩

/-- The joined head weights at row `k`, column `n`. -/
def joinedW (Wmu Wlv : Mat 128 64) (k : Fin 128) (n : Fin 128) : EReal :=
  if h : n.val < 64 then Wmu (ix2 k ⟨n.val, h⟩) else Wlv (ix2 k ⟨n.val - 64, by omega⟩)

/-- The joined head biases at column `n`. -/
def joinedB (bmu blv : Row 64) (n : Fin 128) : EReal :=
  if h : n.val < 64 then bmu (ix1 ⟨n.val, h⟩) else blv (ix1 ⟨n.val - 64, by omega⟩)

/-- The first stage's result: the hidden layer times the joined head weights. -/
def stage1 (adj : Mat 10000 10000) (x : Mat 10000 128) (W1 : Mat 128 128) (b1 : Row 128) (Wmu Wlv : Mat 128 64) : Mat 10000 128 :=
  fun j => ∑ k : Fin 128, hidden adj x W1 b1 (j 0) k * joinedW Wmu Wlv k (j 1)

/-- The second stage before the sampling: the graph convolution of the first stage's result plus the joined bias. -/
def pre2 (adj : Mat 10000 10000) (q : Mat 10000 128) (bmu blv : Row 64) (i : Fin 10000) (n : Fin 128) : EReal :=
  (∑ r : Fin 10000, adj (ix2 i r) * q (ix2 r n)) + joinedB bmu blv n

/-- The second stage's result from the first stage's. -/
def stage2 (adj : Mat 10000 10000) (q : Mat 10000 128) (bmu blv : Row 64) (eps : Mat 10000 64) : Mat 10000 64 :=
  fun j => pre2 adj q bmu blv (j 0) (lo (j 1))
    + Ideal.exp (halfLit * pre2 adj q bmu blv (j 0) (hi (j 1))) * eps (ix2 (j 0) (j 1))

theorem joinedW_lo (Wmu Wlv : Mat 128 64) (k : Fin 128) (j : Fin 64) : joinedW Wmu Wlv k (lo j) = Wmu (ix2 k j) := by
  unfold joinedW lo
  rw [dif_pos (show j.val < 64 from j.isLt)]
theorem joinedW_hi (Wmu Wlv : Mat 128 64) (k : Fin 128) (j : Fin 64) : joinedW Wmu Wlv k (hi j) = Wlv (ix2 k j) := by
  unfold joinedW hi
  rw [dif_neg (show ¬ (j.val + 64 < 64) by omega)]
  exact congrArg (fun t : Fin 64 => Wlv (ix2 k t)) (Fin.ext (by show j.val + 64 - 64 = j.val; omega))
theorem joinedB_lo (bmu blv : Row 64) (j : Fin 64) : joinedB bmu blv (lo j) = bmu (ix1 j) := by
  unfold joinedB lo
  rw [dif_pos (show j.val < 64 from j.isLt)]
theorem joinedB_hi (bmu blv : Row 64) (j : Fin 64) : joinedB bmu blv (hi j) = blv (ix1 j) := by
  unfold joinedB hi
  rw [dif_neg (show ¬ (j.val + 64 < 64) by omega)]
  exact congrArg (fun t : Fin 64 => blv (ix1 t)) (Fin.ext (by show j.val + 64 - 64 = j.val; omega))

/-- One half of the second stage's pre-activation over the first stage's result is that head. -/
theorem pre2_lo (adj : Mat 10000 10000) (x : Mat 10000 128) (W1 : Mat 128 128) (b1 : Row 128) (Wmu : Mat 128 64) (bmu : Row 64)
    (Wlv : Mat 128 64) (blv : Row 64) (i : Fin 10000) (j : Fin 64) :
    pre2 adj (stage1 adj x W1 b1 Wmu Wlv) bmu blv i (lo j) = head adj x W1 b1 Wmu bmu i j := by
  unfold pre2 head stage1
  rw [joinedB_lo]
  refine congrArg (· + bmu (ix1 j)) (Finset.sum_congr rfl fun r _ => congrArg (adj (ix2 i r) * ·) ?_)
  exact Finset.sum_congr rfl fun k _ => by rw [joinedW_lo]
theorem pre2_hi (adj : Mat 10000 10000) (x : Mat 10000 128) (W1 : Mat 128 128) (b1 : Row 128) (Wmu : Mat 128 64) (bmu : Row 64)
    (Wlv : Mat 128 64) (blv : Row 64) (i : Fin 10000) (j : Fin 64) :
    pre2 adj (stage1 adj x W1 b1 Wmu Wlv) bmu blv i (hi j) = head adj x W1 b1 Wlv blv i j := by
  unfold pre2 head stage1
  rw [joinedB_hi]
  refine congrArg (· + blv (ix1 j)) (Finset.sum_congr rfl fun r _ => congrArg (adj (ix2 i r) * ·) ?_)
  exact Finset.sum_congr rfl fun k _ => by rw [joinedW_hi]

/-- The kernel's two stages compose to the specification. -/
theorem stage2_stage1 (adj : Mat 10000 10000) (x : Mat 10000 128) (W1 : Mat 128 128) (b1 : Row 128) (Wmu : Mat 128 64) (bmu : Row 64)
    (Wlv : Mat 128 64) (blv : Row 64) (eps : Mat 10000 64) :
    stage2 adj (stage1 adj x W1 b1 Wmu Wlv) bmu blv eps = sample adj x W1 b1 Wmu bmu Wlv blv eps := by
  funext j
  obtain ⟨p, q, rfl⟩ : ∃ (p : Fin 10000) (q : Fin 64), j = ix2 p q := ⟨j 0, j 1, eq_ix2 j⟩
  show pre2 adj (stage1 adj x W1 b1 Wmu Wlv) bmu blv p (lo q)
      + Ideal.exp (halfLit * pre2 adj (stage1 adj x W1 b1 Wmu Wlv) bmu blv p (hi q)) * eps (ix2 p q)
    = head adj x W1 b1 Wmu bmu p q + Ideal.exp (halfLit * head adj x W1 b1 Wlv blv p q) * eps (ix2 p q)
  rw [pre2_lo, pre2_hi]

end Cert.Spec

end
-- ==== Proof.KI.ValueQ.lean ====
/-
  What the first launch leaves in its output array, index by index on the extended reals: `Cert.Spec.stage1` of the
  launch contents of the adjacency, the features, the first weights, the first bias and the two heads' weights.

  The road: each of the body's three products, into the zero array, is at an index the sum over its one contracted axis;
  so a point's stored value at (p, n) is Σ_k max (Σ_r A[p,r] · (Σ_a X[r,a] · W1[a,k]) + B[0,k]) 0 · W[k,n] of the blocks it
  holds. The adjacency's block at point t is rows 400·t … 400·t + 399 of the adjacency, the other four blocks are whole
  arrays: the features and first weights as launched, the bias reshaped to one row, the two heads' weights side by side.
  Point t's write-back is therefore rows 400·t … 400·t + 399 of the first stage's result, and the 25 row blocks cover the
  array.
-/
import proofs.«170476_g15874199126456_cont_week2b_1129_3_alg».proof.Proof.KI.Mem
import proofs.«170476_g15874199126456_cont_week2b_1129_3_alg».proof.Proof.Joined
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr
open scoped BigOperators

namespace Q

/-! ## The three products of the first launch's body, each read at an index

Each is a product into the zero array, so its entry is the sum over the one contracted axis of the operands' products;
the four coordinate facts of each record say which entries those are. -/

/-! ### The features times the first weights: [10000,128] · [128,128] -/

theorem xw_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, n) of the features times the first weights. -/
theorem matmul_xw (L : FVec Ideal S10000x128 .f32) (R : FVec Ideal S128x128 .f32) (p : Fin 10000) (n : Fin 128) :
    matmul dot_S10000x128_S128x128_S10000x128_1_0_0_1_n_n none L R (constant (F := Ideal) S10000x128 .f32 0x00000000#32) (ix2 p n)
      = ∑ k : Fin 128, L (ix2 p k) * R (ix2 k n) := by
  refine (Ideal.matmul_constant_zero_apply dot_S10000x128_S128x128_S10000x128_1_0_0_1_n_n none L R (ix2 p n)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p n) ((contrEquiv1 dot_S10000x128_S128x128_S10000x128_1_0_0_1_n_n 128 rfl rfl).symm k) = ix2 p k := funext fun a => Fin.ext (by
    match a with
    | ⟨0, _⟩ => exact xw_lhs_0 _ _
    | ⟨1, _⟩ => exact (xw_lhs_1 _ _).trans hk)
  have er : dot_S10000x128_S128x128_S10000x128_1_0_0_1_n_n.rhsIdx (ix2 p n) ((contrEquiv1 dot_S10000x128_S128x128_S10000x128_1_0_0_1_n_n 128 rfl rfl).symm k) = ix2 k n := funext fun a => Fin.ext (by
    match a with
    | ⟨0, _⟩ => exact (xw_rhs_0 _ _).trans hk
    | ⟨1, _⟩ => exact xw_rhs_1 _ _)
  rw [el, er]

/-! ### A block of 400 adjacency rows times the projected features: [400,10000] · [10000,128] -/

theorem ap_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem ap_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem ap_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem ap_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, n) of an adjacency row block times the projected features. -/
theorem matmul_ap (L : FVec Ideal S400x10000 .f32) (R : FVec Ideal S10000x128 .f32) (p : Fin 400) (n : Fin 128) :
    matmul dot_S400x10000_S10000x128_S400x128_1_0_0_1_n_n none L R (constant (F := Ideal) S400x128 .f32 0x00000000#32) (ix2 p n)
      = ∑ k : Fin 10000, L (ix2 p k) * R (ix2 k n) := by
  refine (Ideal.matmul_constant_zero_apply dot_S400x10000_S10000x128_S400x128_1_0_0_1_n_n none L R (ix2 p n)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p n) ((contrEquiv1 dot_S400x10000_S10000x128_S400x128_1_0_0_1_n_n 10000 rfl rfl).symm k) = ix2 p k := funext fun a => Fin.ext (by
    match a with
    | ⟨0, _⟩ => exact ap_lhs_0 _ _
    | ⟨1, _⟩ => exact (ap_lhs_1 _ _).trans hk)
  have er : dot_S400x10000_S10000x128_S400x128_1_0_0_1_n_n.rhsIdx (ix2 p n) ((contrEquiv1 dot_S400x10000_S10000x128_S400x128_1_0_0_1_n_n 10000 rfl rfl).symm k) = ix2 k n := funext fun a => Fin.ext (by
    match a with
    | ⟨0, _⟩ => exact (ap_rhs_0 _ _).trans hk
    | ⟨1, _⟩ => exact ap_rhs_1 _ _)
  rw [el, er]

/-! ### A block of 400 hidden rows times the joined head weights: [400,128] · [128,128] -/

theorem hw_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem hw_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem hw_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem hw_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (p, n) of a hidden row block times the joined head weights. -/
theorem matmul_hw (L : FVec Ideal S400x128 .f32) (R : FVec Ideal S128x128 .f32) (p : Fin 400) (n : Fin 128) :
    matmul dot_S400x128_S128x128_S400x128_1_0_0_1_n_n none L R (constant (F := Ideal) S400x128 .f32 0x00000000#32) (ix2 p n)
      = ∑ k : Fin 128, L (ix2 p k) * R (ix2 k n) := by
  refine (Ideal.matmul_constant_zero_apply dot_S400x128_S128x128_S400x128_1_0_0_1_n_n none L R (ix2 p n)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p n) ((contrEquiv1 dot_S400x128_S128x128_S400x128_1_0_0_1_n_n 128 rfl rfl).symm k) = ix2 p k := funext fun a => Fin.ext (by
    match a with
    | ⟨0, _⟩ => exact hw_lhs_0 _ _
    | ⟨1, _⟩ => exact (hw_lhs_1 _ _).trans hk)
  have er : dot_S400x128_S128x128_S400x128_1_0_0_1_n_n.rhsIdx (ix2 p n) ((contrEquiv1 dot_S400x128_S128x128_S400x128_1_0_0_1_n_n 128 rfl rfl).symm k) = ix2 k n := funext fun a => Fin.ext (by
    match a with
    | ⟨0, _⟩ => exact (hw_rhs_0 _ _).trans hk
    | ⟨1, _⟩ => exact hw_rhs_1 _ _)
  rw [el, er]

/-! ## The body's two payloads at an index -/

/-- The projected features the first point stores: entry (r, k) is Σ_a x[r,a] · W1[a,k]. -/
theorem pay1_apply (X : Vec Ideal S10000x128 .f32) (W : Vec Ideal S128x128 .f32) (r : Fin 10000) (k : Fin 128) :
    k0_pay1 X W (ix2 r k) = ∑ a : Fin 128, X (ix2 r a) * W (ix2 a k) := by
  unfold k0_pay1
  refine (congrFun (shapeCast_self _ shapeCasts_S10000x128_S10000x128) (ix2 r k)).trans ?_
  exact matmul_xw X W r k

/-- The bias row spread over the 400 rows of a block reads the row's column. -/
theorem bias_apply (B : Vec Ideal S1x128 .f32) (p : Fin 400) (k : Fin 128) :
    broadcastTo S400x128 (shapeCast S1x128 B shapeCasts_S1x128_S1x128) broadcasts_S1x128_S400x128 (ix2 p k)
      = B (ix2 (0 : Fin 1) k) := by
  rw [shapeCast_self]
  refine broadcastTo_apply B broadcasts_S1x128_S400x128 (ix2 p k) (ix2 (0 : Fin 1) k) fun a => ?_
  match a with
  | ⟨0, _⟩ => show 0 = if (1 : Nat) = 1 then 0 else p.val; rw [if_pos rfl]
  | ⟨1, _⟩ => show k.val = if (128 : Nat) = 1 then 0 else k.val; rw [if_neg (by decide)]

/-- What a point stores into its output block: entry (p, n) is Σ_k max (Σ_r A[p,r] · P[r,k] + B[0,k]) 0 · W[k,n]. -/
theorem pay2_apply (A : Vec Ideal S400x10000 .f32) (P : Vec Ideal S10000x128 .f32) (B : Vec Ideal S1x128 .f32) (W : Vec Ideal S128x128 .f32)
    (p : Fin 400) (n : Fin 128) :
    k0_pay2 A P B W (ix2 p n)
      = ∑ k : Fin 128, max ((∑ r : Fin 10000, A (ix2 p r) * P (ix2 r k)) + B (ix2 (0 : Fin 1) k)) Cert.Spec.zeroLit * W (ix2 k n) := by
  unfold k0_pay2
  refine (matmul_hw _ _ p n).trans ?_
  refine Finset.sum_congr rfl fun k _ => ?_
  have e1 := matmul_ap A P p k
  have e2 := bias_apply B p k
  have e3 : shapeCast S128x128 W shapeCasts_S128x128_S128x128 (ix2 k n) = W (ix2 k n) :=
    congrFun (shapeCast_self W shapeCasts_S128x128_S128x128) (ix2 k n)
  exact congrArg₂ (· * ·) (congrArg₂ max (congrArg₂ (· + ·) e1 e2) rfl) e3

/-! ## One entry of a point's output block against the specification -/

open Cert.Spec in
/-- A point's stored value at row `p`, column `n` of its block is the first stage's result at row `i`, column `n`, once
    the point's adjacency block holds row `i` of the adjacency at its row `p` and the other four operands hold the
    features, the first weights, the bias as a row and the joined head weights. -/
theorem point_eq (A : Vec Ideal S400x10000 .f32) (X : Vec Ideal S10000x128 .f32) (W1 : Vec Ideal S128x128 .f32)
    (B : Vec Ideal S1x128 .f32) (W : Vec Ideal S128x128 .f32)
    (adj : Mat 10000 10000) (x : Mat 10000 128) (w1 : Mat 128 128) (b1 : Row 128) (Wmu Wlv : Mat 128 64)
    (i : Fin 10000) (p : Fin 400) (n : Fin 128)
    (hA : ∀ r : Fin 10000, A (ix2 p r) = adj (ix2 i r))
    (hX : ∀ (r : Fin 10000) (a : Fin 128), X (ix2 r a) = x (ix2 r a))
    (hW1 : ∀ (a : Fin 128) (k : Fin 128), W1 (ix2 a k) = w1 (ix2 a k))
    (hB : ∀ k : Fin 128, B (ix2 (0 : Fin 1) k) = b1 (ix1 k))
    (hW : ∀ k : Fin 128, W (ix2 k n) = joinedW Wmu Wlv k n) :
    k0_pay2 A (k0_pay1 X W1) B W (ix2 p n) = stage1 adj x w1 b1 Wmu Wlv (ix2 i n) := by
  refine (pay2_apply A (k0_pay1 X W1) B W p n).trans ?_
  show _ = ∑ k : Fin 128, Cert.Spec.hidden adj x w1 b1 i k * joinedW Wmu Wlv k n
  refine Finset.sum_congr rfl fun k _ => ?_
  rw [hW k, hB k]
  unfold Cert.Spec.hidden
  refine congrArg (fun s => max (s + b1 (ix1 k)) zeroLit * joinedW Wmu Wlv k n) ?_
  refine Finset.sum_congr rfl fun r _ => ?_
  rw [hA r, pay1_apply X W1 r k]
  unfold Cert.Spec.proj
  exact congrArg (adj (ix2 i r) * ·) (Finset.sum_congr rfl fun a _ => by rw [hX r a, hW1 a k])

end Q

variable (m : (ℓ : Loc nD τ sig) → Buf (Elt Ideal) ℓ) (ρ : Dev nD → PrngReg)

namespace Q

/-! ## What the first launch finds in its arrays

No host operation writes an argument; the bias is reshaped to one row; the two heads' weights are joined side by side. -/

theorem ent1_arg0 (c : Dev nD) :
    (ent1 m ρ c main_arg0 : S10000x10000.Idx → EReal) = m ((c : Thread nD τ).loc main_arg0) := by
  dsimp only [ent1, mem1, hostOps0]; after_results
theorem ent1_arg1 (c : Dev nD) :
    (ent1 m ρ c main_arg1 : S10000x128.Idx → EReal) = m ((c : Thread nD τ).loc main_arg1) := by
  dsimp only [ent1, mem1, hostOps0]; after_results
theorem ent1_arg2 (c : Dev nD) :
    (ent1 m ρ c main_arg2 : S128x128.Idx → EReal) = m ((c : Thread nD τ).loc main_arg2) := by
  dsimp only [ent1, mem1, hostOps0]; after_results
theorem ent1_v3 (c : Dev nD) :
    (ent1 m ρ c main_v3 : S1x128.Idx → EReal)
      = shapeCast S1x128 (m ((c : Thread nD τ).loc main_arg3) : S128.Idx → EReal) shapeCasts_S128_S1x128 := by
  dsimp only [ent1, mem1, hostOps0]; after_results; rfl
theorem ent1_v0 (c : Dev nD) :
    (ent1 m ρ c main_v0 : S128x128.Idx → EReal)
      = concatenate S128x128 1 [⟨S128x64, (m ((c : Thread nD τ).loc main_arg4) : S128x64.Idx → EReal)⟩,
          ⟨S128x64, (m ((c : Thread nD τ).loc main_arg6) : S128x64.Idx → EReal)⟩] concatenates_S128x64_S128x64_S128x128_d1 := by
  dsimp only [ent1, mem1, hostOps0]; after_results

/-- The bias as one row, read at a column, is the bias there. -/
theorem bias_row_apply (b1 : S128.Idx → EReal) (k : Fin 128) :
    shapeCast S1x128 b1 shapeCasts_S128_S1x128 (ix2 (0 : Fin 1) k) = b1 (ix1 k) := by
  refine shapeCast_apply b1 shapeCasts_S128_S1x128 (ix2 (0 : Fin 1) k) (ix1 k) ?_
  rw [Shape.rowMajor_val_two, Shape.rowMajor_val_one]
  show k.val = 0 * 128 + k.val
  omega

/-- The two heads' weights side by side, read at row `k`, column `n`: the mean head's below column 64, the
    log-variance head's from there on. -/
theorem joined_apply (Wmu Wlv : S128x64.Idx → EReal) (k n : Fin 128) :
    concatenate S128x128 1 [⟨S128x64, Wmu⟩, ⟨S128x64, Wlv⟩] concatenates_S128x64_S128x64_S128x128_d1 (ix2 k n)
      = Cert.Spec.joinedW Wmu Wlv k n := by
  unfold Cert.Spec.joinedW
  by_cases h : n.val < 64
  · rw [dif_pos h]
    exact concatenate_pair_apply_left 1 Wmu Wlv concatenates_S128x64_S128x64_S128x128_d1 (ix2 k n) rfl (ix2 k ⟨n.val, h⟩) (fun b => by
      match b with
      | ⟨0, _⟩ => rfl
      | ⟨1, _⟩ => rfl)
  · rw [dif_neg h]
    exact concatenate_pair_apply_right 1 Wmu Wlv concatenates_S128x64_S128x64_S128x128_d1 (ix2 k n) rfl rfl
      (ix2 k ⟨n.val - 64, by have := n.isLt; omega⟩)
      (fun b hb => by
        match b with
        | ⟨0, _⟩ => rfl
        | ⟨1, _⟩ => exact absurd rfl hb)
      (by show n.val - 64 + 64 = n.val; omega)

/-! ## The windows' blocks as parts of their arrays

A block's coordinate on an axis is the block index times the block's extent plus the coordinate inside the block. -/

/-- The block indices at point `t`, decided over the 25 points: the adjacency's and the output's row block is `t`;
    every other window's block is the whole of its array at block index (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- Row `p` of the adjacency's block at point `t` is row `400·t + p` of the adjacency. -/
theorem adj_blk (c : Dev nD) (t : Fin cfg0.N) (p : Fin 400) (r : Fin 10000) (i : Fin 10000) (hi : i.val = 400 * t.val + p.val) :
    (iblk0 V c 0 t : Vec F S400x10000 .f32) (ix2 p r) = (V c main_arg0 : S10000x10000.Idx → Elt F .f32) (ix2 i r) := by
  have h0 : win0_0.index t (0 : Fin 2) = t.val := (idx_facts0 t).1
  have h1 : win0_0.index t (1 : Fin 2) = 0 := (idx_facts0 t).2.1
  show (V c main_arg0 : S10000x10000.Idx → Elt F .f32) (((cfg0.win 0).blk t).view.emb (ix2 p r)) = _
  refine congrArg (V c main_arg0 : S10000x10000.Idx → Elt F .f32) (funext fun d => Fin.ext ?_)
  match d with
  | ⟨0, _⟩ => show win0_0.index t (0 : Fin 2) * 400 + 1 * p.val = i.val; rw [h0, hi]; omega
  | ⟨1, _⟩ => show win0_0.index t (1 : Fin 2) * 10000 + 1 * r.val = r.val; rw [h1]; omega

/-- The features' block is the whole array, at any point. -/
theorem x_blk (c : Dev nD) (t : Fin cfg0.N) (r : Fin 10000) (a : Fin 128) :
    (iblk0 V c 1 t : Vec F S10000x128 .f32) (ix2 r a) = (V c main_arg1 : S10000x128.Idx → Elt F .f32) (ix2 r a) := by
  have h0 : win0_1.index t (0 : Fin 2) = 0 := (idx_facts0 t).2.2.1
  have h1 : win0_1.index t (1 : Fin 2) = 0 := (idx_facts0 t).2.2.2.1
  show (V c main_arg1 : S10000x128.Idx → Elt F .f32) (((cfg0.win 1).blk t).view.emb (ix2 r a)) = _
  refine congrArg (V c main_arg1 : S10000x128.Idx → Elt F .f32) (funext fun d => Fin.ext ?_)
  match d with
  | ⟨0, _⟩ => show win0_1.index t (0 : Fin 2) * 10000 + 1 * r.val = r.val; rw [h0]; omega
  | ⟨1, _⟩ => show win0_1.index t (1 : Fin 2) * 128 + 1 * a.val = a.val; rw [h1]; omega

/-- The first weights' block is the whole array, at any point. -/
theorem w1_blk (c : Dev nD) (t : Fin cfg0.N) (a : Fin 128) (k : Fin 128) :
    (iblk0 V c 2 t : Vec F S128x128 .f32) (ix2 a k) = (V c main_arg2 : S128x128.Idx → Elt F .f32) (ix2 a k) := by
  have h0 : win0_2.index t (0 : Fin 2) = 0 := (idx_facts0 t).2.2.2.2.1
  have h1 : win0_2.index t (1 : Fin 2) = 0 := (idx_facts0 t).2.2.2.2.2.1
  show (V c main_arg2 : S128x128.Idx → Elt F .f32) (((cfg0.win 2).blk t).view.emb (ix2 a k)) = _
  refine congrArg (V c main_arg2 : S128x128.Idx → Elt F .f32) (funext fun d => Fin.ext ?_)
  match d with
  | ⟨0, _⟩ => show win0_2.index t (0 : Fin 2) * 128 + 1 * a.val = a.val; rw [h0]; omega
  | ⟨1, _⟩ => show win0_2.index t (1 : Fin 2) * 128 + 1 * k.val = k.val; rw [h1]; omega

/-- The bias row's block is the whole array, at any point. -/
theorem b_blk (c : Dev nD) (t : Fin cfg0.N) (z : Fin 1) (k : Fin 128) :
    (iblk0 V c 3 t : Vec F S1x128 .f32) (ix2 z k) = (V c main_v3 : S1x128.Idx → Elt F .f32) (ix2 z k) := by
  have h0 : win0_3.index t (0 : Fin 2) = 0 := (idx_facts0 t).2.2.2.2.2.2.1
  have h1 : win0_3.index t (1 : Fin 2) = 0 := (idx_facts0 t).2.2.2.2.2.2.2.1
  show (V c main_v3 : S1x128.Idx → Elt F .f32) (((cfg0.win 3).blk t).view.emb (ix2 z k)) = _
  refine congrArg (V c main_v3 : S1x128.Idx → Elt F .f32) (funext fun d => Fin.ext ?_)
  match d with
  | ⟨0, _⟩ => show win0_3.index t (0 : Fin 2) * 1 + 1 * z.val = z.val; rw [h0]; omega
  | ⟨1, _⟩ => show win0_3.index t (1 : Fin 2) * 128 + 1 * k.val = k.val; rw [h1]; omega

/-- The joined head weights' block is the whole array, at any point. -/
theorem w_blk (c : Dev nD) (t : Fin cfg0.N) (k : Fin 128) (n : Fin 128) :
    (iblk0 V c 4 t : Vec F S128x128 .f32) (ix2 k n) = (V c main_v0 : S128x128.Idx → Elt F .f32) (ix2 k n) := by
  have h0 : win0_4.index t (0 : Fin 2) = 0 := (idx_facts0 t).2.2.2.2.2.2.2.2.1
  have h1 : win0_4.index t (1 : Fin 2) = 0 := (idx_facts0 t).2.2.2.2.2.2.2.2.2.1
  show (V c main_v0 : S128x128.Idx → Elt F .f32) (((cfg0.win 4).blk t).view.emb (ix2 k n)) = _
  refine congrArg (V c main_v0 : S128x128.Idx → Elt F .f32) (funext fun d => Fin.ext ?_)
  match d with
  | ⟨0, _⟩ => show win0_4.index t (0 : Fin 2) * 128 + 1 * k.val = k.val; rw [h0]; omega
  | ⟨1, _⟩ => show win0_4.index t (1 : Fin 2) * 128 + 1 * n.val = n.val; rw [h1]; omega

end Blocks

/-! ## From the points' blocks to the array -/

/-- The first stage's result over the launch contents of the six arguments it depends on. -/
abbrev target (c : Dev nD) : Cert.Spec.Mat 10000 128 :=
  Cert.Spec.stage1 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg6))

/-- What point `t` writes back is rows `400·t … 400·t + 399` of the first stage's result. -/
theorem flushed_eq (c : Dev nD) (t : Fin cfg0.N) :
    (dat0 (ent1 m ρ) c).flushed 5 t = ((cfg0.win 5).blk t).view.read (Elt Ideal) (target m c) := by
  show (cfg0.win 5).cut (grid0.coords t) ((dat0 (ent1 m ρ) c).after 5 t) = _
  rw [after0_5]
  funext j
  obtain ⟨p, n, rfl⟩ : ∃ (p : Fin 400) (n : Fin 128), j = ix2 p n := ⟨j 0, j 1, eq_ix2 j⟩
  have ht : t.val < 25 := lt_of_lt_of_eq t.isLt N_0
  have h0 : win0_5.index t (0 : Fin 2) = t.val := (idx_facts0 t).2.2.2.2.2.2.2.2.2.2.1
  have h1 : win0_5.index t (1 : Fin 2) = 0 := (idx_facts0 t).2.2.2.2.2.2.2.2.2.2.2
  have hemb : ((cfg0.win 5).blk t).view.emb (ix2 p n) = ix2 (⟨400 * t.val + p.val, by omega⟩ : Fin 10000) n := by
    funext a; apply Fin.ext
    match a with
    | ⟨0, _⟩ => show win0_5.index t (0 : Fin 2) * 400 + 1 * p.val = 400 * t.val + p.val; rw [h0]; omega
    | ⟨1, _⟩ => show win0_5.index t (1 : Fin 2) * 128 + 1 * n.val = n.val; rw [h1]; omega
  show k0_pay2 (iblk0 (ent1 m ρ) c 0 t) (k0_pay1 (iblk0 (ent1 m ρ) c 1 t₀) (iblk0 (ent1 m ρ) c 2 t₀)) (iblk0 (ent1 m ρ) c 3 t)
      (iblk0 (ent1 m ρ) c 4 t) (ix2 p n) = target m c (((cfg0.win 5).blk t).view.emb (ix2 p n))
  rw [hemb]
  exact point_eq (iblk0 (ent1 m ρ) c 0 t) (iblk0 (ent1 m ρ) c 1 t₀) (iblk0 (ent1 m ρ) c 2 t₀) (iblk0 (ent1 m ρ) c 3 t) (iblk0 (ent1 m ρ) c 4 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6))
    (⟨400 * t.val + p.val, by omega⟩ : Fin 10000) p n
    (fun r => (adj_blk (ent1 m ρ) c t p r ⟨400 * t.val + p.val, by omega⟩ rfl).trans (congrFun (ent1_arg0 m ρ c) _))
    (fun r a => (x_blk (ent1 m ρ) c t₀ r a).trans (congrFun (ent1_arg1 m ρ c) _))
    (fun a k => (w1_blk (ent1 m ρ) c t₀ a k).trans (congrFun (ent1_arg2 m ρ c) _))
    (fun k => ((b_blk (ent1 m ρ) c t 0 k).trans (congrFun (ent1_v3 m ρ c) _)).trans (bias_row_apply _ k))
    (fun k => ((w_blk (ent1 m ρ) c t k n).trans (congrFun (ent1_v0 m ρ c) _)).trans (joined_apply _ _ k n))

/-- An index of the output array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4).slice (win0_5.rect t)).set ↔ _
  rw [View.set_slice_whole, Rect.mem_set_unit]
  exact Iff.rfl

/-- Every row of the output array is in some point's block: row `r` in point `r / 400`'s. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 400, lt_of_lt_of_eq (by omega : (i 0).val / 400 < 25) N_0.symm⟩, flush0_5 _, ?_⟩
  rw [mem_blk]
  have h0 := (idx_facts0 ⟨(i 0).val / 400, lt_of_lt_of_eq (by omega : (i 0).val / 400 < 25) N_0.symm⟩).2.2.2.2.2.2.2.2.2.2.1
  have h1 := (idx_facts0 ⟨(i 0).val / 400, lt_of_lt_of_eq (by omega : (i 0).val / 400 < 25) N_0.symm⟩).2.2.2.2.2.2.2.2.2.2.2
  intro a
  match a with
  | ⟨0, _⟩ =>
    show win0_5.index _ (0 : Fin 2) * 400 ≤ (i 0).val ∧ (i 0).val < win0_5.index _ (0 : Fin 2) * 400 + 400
    rw [h0]; show (i 0).val / 400 * 400 ≤ (i 0).val ∧ (i 0).val < (i 0).val / 400 * 400 + 400; omega
  | ⟨1, _⟩ =>
    show win0_5.index _ (1 : Fin 2) * 128 ≤ (i 1).val ∧ (i 1).val < win0_5.index _ (1 : Fin 2) * 128 + 128
    rw [h1]; omega

/-- The first launch leaves its output array at the first stage's result. -/
theorem final (c : Dev nD) : (dat0 (ent1 m ρ) c).arrAt 5 cfg0.N = target m c :=
  (dat0 (ent1 m ρ) c).arrAt_eq_of_cover 5 (target m c) (fun t _ => flushed_eq m ρ c t) cover

end Q

/-- The second launch is entered with the first launch's output array at the first stage's result. -/
theorem q_spec (c : Dev nD) :
    ent2 (F := Ideal) m ρ c main_v4
      = Cert.Spec.stage1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg6)) :=
  (mem2_arr m ρ c 5).trans (Q.final m ρ c)

end Cert.KernelIdeal.Val

end
-- ==== Proof.KI.ValueZ.lean ====
/-
  What the second launch leaves in the result array, index by index on the extended reals, from what it found in the first
  launch's output array: `Cert.Spec.stage2` of the adjacency, that array, the two heads' biases and the noise.
-/
import proofs.«170476_g15874199126456_cont_week2b_1129_3_alg».proof.Proof.KI.Mem
import proofs.«170476_g15874199126456_cont_week2b_1129_3_alg».proof.Proof.Joined
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr
open scoped BigOperators

/-! ## The second stage's block arithmetic at an index -/

/-- The row axis of the left factor of the block product is the result's row. -/
theorem lhs_z_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Its column axis is the summation index. -/
theorem lhs_z_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The row axis of the right factor is the summation index. -/
theorem rhs_z_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- Its column axis is the result's column. -/
theorem rhs_z_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The block product into the zero splat, at row `p` and column `k`: the sum over the 10000 neighbours `r` of the
    adjacency block's entry `(p, r)` times the wide array's entry `(r, k)`. -/
theorem prod_z_apply (a : Vec Ideal S400x10000 .f32) (b : Vec Ideal S10000x128 .f32) (p : Fin 400) (k : Fin 128) :
    matmul (φ₁ := .f32) (φ₂ := .f32) dot_S400x10000_S10000x128_S400x128_1_0_0_1_n_n none a b (constant (F := Ideal) S400x128 .f32 0x00000000#32) (ix2 p k)
      = ∑ r : Fin 10000, a (ix2 p r) * b (ix2 r k) := by
  refine (Ideal.matmul_constant_zero_apply dot_S400x10000_S10000x128_S400x128_1_0_0_1_n_n none a b (ix2 p k)).trans ?_
  rw [← Equiv.sum_comp (ValueIdx.contrEquiv1 dot_S400x10000_S10000x128_S400x128_1_0_0_1_n_n 10000 rfl rfl).symm]
  refine Finset.sum_congr rfl fun r _ => ?_
  have hr := ValueIdx.contrEquiv1_symm_val dot_S400x10000_S10000x128_S400x128_1_0_0_1_n_n 10000 rfl rfl r
  have el : dot_S400x10000_S10000x128_S400x128_1_0_0_1_n_n.lhsIdx (ix2 p k) ((ValueIdx.contrEquiv1 dot_S400x10000_S10000x128_S400x128_1_0_0_1_n_n 10000 rfl rfl).symm r) = ix2 p r := funext fun ax => Fin.ext (by
    match ax with
    | ⟨0, _⟩ => exact lhs_z_0 _ _
    | ⟨1, _⟩ => exact (lhs_z_1 _ _).trans hr)
  have er : dot_S400x10000_S10000x128_S400x128_1_0_0_1_n_n.rhsIdx (ix2 p k) ((ValueIdx.contrEquiv1 dot_S400x10000_S10000x128_S400x128_1_0_0_1_n_n 10000 rfl rfl).symm r) = ix2 r k := funext fun ax => Fin.ext (by
    match ax with
    | ⟨0, _⟩ => exact (rhs_z_0 _ _).trans hr
    | ⟨1, _⟩ => exact rhs_z_1 _ _)
  rw [el, er]

/-- The block before the sampling, at row `p` and column `k`: the product plus the bias row's entry `k`. -/
def preZ (a : Vec Ideal S400x10000 .f32) (b : Vec Ideal S10000x128 .f32) (bias : Vec Ideal S1x128 .f32) (p : Fin 400) (k : Fin 128) : EReal :=
  (∑ r : Fin 10000, a (ix2 p r) * b (ix2 r k)) + bias (ix2 (0 : Fin 1) k)

/-- The product plus the bias row broadcast down the 400 rows, at row `p` and column `k`. -/
theorem preZ_apply (a : Vec Ideal S400x10000 .f32) (b : Vec Ideal S10000x128 .f32) (bias : Vec Ideal S1x128 .f32) (p : Fin 400) (k : Fin 128) :
    addf (matmul (φ₁ := .f32) (φ₂ := .f32) dot_S400x10000_S10000x128_S400x128_1_0_0_1_n_n none a (shapeCast S10000x128 b shapeCasts_S10000x128_S10000x128) (constant (F := Ideal) S400x128 .f32 0x00000000#32))
        (broadcastTo S400x128 (shapeCast S1x128 bias shapeCasts_S1x128_S1x128) broadcasts_S1x128_S400x128) (ix2 p k)
      = preZ a b bias p k := by
  rw [shapeCast_self, shapeCast_self]
  unfold preZ
  refine (addf_apply _ _ _).trans ?_
  exact congrArg₂ (· + ·) (prod_z_apply a b p k) (broadcastTo_1b_ab_apply bias broadcasts_S1x128_S400x128 p k)

/-- The second stage's block arithmetic at row `p`, latent coordinate `n`: the low half of the pre-activation plus the
    exponential of one half of the high half, times the noise. -/
theorem payZ_apply (a : Vec Ideal S400x10000 .f32) (b : Vec Ideal S10000x128 .f32) (bias : Vec Ideal S1x128 .f32) (e : Vec Ideal S400x64 .f32)
    (p : Fin 400) (n : Fin 64) :
    k1_pay1 (F := Ideal) a b bias e (ix2 p n)
      = preZ a b bias p (Cert.Spec.lo n) + Ideal.exp (Cert.Spec.halfLit * preZ a b bias p (Cert.Spec.hi n)) * e (ix2 p n) := by
  unfold k1_pay1
  show (extractStridedSlice S400x64 ![0, 0] (addf (matmul (φ₁ := .f32) (φ₂ := .f32) dot_S400x10000_S10000x128_S400x128_1_0_0_1_n_n none a (shapeCast S10000x128 b shapeCasts_S10000x128_S10000x128) (constant (F := Ideal) S400x128 .f32 0x00000000#32)) (broadcastTo S400x128 (shapeCast S1x128 bias shapeCasts_S1x128_S1x128) broadcasts_S1x128_S400x128)) slices_S400x128_o0_0_S400x64) (ix2 p n)
      + Ideal.exp (Cert.Spec.halfLit * (extractStridedSlice S400x64 ![0, 64] (addf (matmul (φ₁ := .f32) (φ₂ := .f32) dot_S400x10000_S10000x128_S400x128_1_0_0_1_n_n none a (shapeCast S10000x128 b shapeCasts_S10000x128_S10000x128) (constant (F := Ideal) S400x128 .f32 0x00000000#32)) (broadcastTo S400x128 (shapeCast S1x128 bias shapeCasts_S1x128_S1x128) broadcasts_S1x128_S400x128)) slices_S400x128_o0_64_S400x64) (ix2 p n)) * e (ix2 p n) = _
  refine congrArg₂ (· + ·) ?_ (congrArg₂ (· * ·) (congrArg Ideal.exp (congrArg (Cert.Spec.halfLit * ·) ?_)) rfl)
  · exact (slice2_axis1_apply 0 _ slices_S400x128_o0_0_S400x64 p n (Cert.Spec.lo n) (by show n.val = 0 + n.val; omega)).trans (preZ_apply a b bias p _)
  · exact (slice2_axis1_apply 64 _ slices_S400x128_o0_64_S400x64 p n (Cert.Spec.hi n) (by show n.val + 64 = 64 + n.val; omega)).trans (preZ_apply a b bias p _)

variable (m : (ℓ : Loc nD τ sig) → Buf (Elt Ideal) ℓ) (ρ : Dev nD → PrngReg)

/-! ## The second launch's input arrays as it finds them -/

/-- The adjacency is as launched: no host operation writes it and the first launch only reads it. -/
theorem found_adj (c : Dev nD) : ent2 (F := Ideal) m ρ c main_arg0 = m ((c.tc : Thread nD τ).loc main_arg0) :=
  ((mem3_arr m ρ c 0).trans (((dat1 (ent2 m ρ) c).arrAt_in 0 rfl _).trans (A_eq1 (ent2 m ρ) c 0))).symm.trans (mem3_main_arg0 m ρ c)

/-- The noise is as launched: nothing before the second launch touches it. -/
theorem found_eps (c : Dev nD) : ent2 (F := Ideal) m ρ c main_arg8 = m ((c.tc : Thread nD τ).loc main_arg8) :=
  ((mem3_arr m ρ c 3).trans (((dat1 (ent2 m ρ) c).arrAt_in 3 rfl _).trans (A_eq1 (ent2 m ρ) c 3))).symm.trans (mem3_main_arg8 m ρ c)

/-- The bias row is what the host operations made of the two heads' biases: their concatenation, reshaped to one row. -/
theorem found_bias (c : Dev nD) : (ent2 (F := Ideal) m ρ c main_v2 : S1x128.Idx → EReal)
    = shapeCast S1x128 (concatenate S128 0 [⟨S64, (m ((c.tc : Thread nD τ).loc main_arg5) : S64.Idx → EReal)⟩, ⟨S64, (m ((c.tc : Thread nD τ).loc main_arg7) : S64.Idx → EReal)⟩] concatenates_S64_S64_S128_d0) shapeCasts_S128_S1x128 := by
  refine (mem2_of_ne m ρ c main_v2 (by decide)).trans ?_
  dsimp only [mem1, hostOps0]
  after_results
  rfl

/-- Entry `k` of the bias row is the joined bias at `k`: the mean head's below 64, the log-variance head's from 64 on. -/
theorem found_bias_apply (c : Dev nD) (k : Fin 128) :
    (ent2 (F := Ideal) m ρ c main_v2 : S1x128.Idx → EReal) (ix2 (0 : Fin 1) k)
      = Cert.Spec.joinedB (m ((c.tc : Thread nD τ).loc main_arg5)) (m ((c.tc : Thread nD τ).loc main_arg7)) k := by
  rw [found_bias]
  refine (shapeCast_apply _ shapeCasts_S128_S1x128 (ix2 (0 : Fin 1) k) (ix1 k) ?_).trans ?_
  · rw [Shape.rowMajor_val_one, Shape.rowMajor_val_two]
    show k.val = 0 * 128 + k.val
    omega
  · unfold Cert.Spec.joinedB
    split
    · next h =>
      exact concatenate_pair_apply_left (0 : Fin S128.rank) _ _ concatenates_S64_S64_S128_d0 (ix1 k) rfl (ix1 ⟨k.val, h⟩)
        (fun b => match b with | ⟨0, _⟩ => rfl)
    · next h =>
      exact concatenate_pair_apply_right (0 : Fin S128.rank) _ _ concatenates_S64_S64_S128_d0 (ix1 k) rfl rfl (ix1 ⟨k.val - 64, by omega⟩)
        (fun b hb => match b with | ⟨0, _⟩ => absurd rfl hb) (by show k.val - 64 + 64 = k.val; omega)

/-! ## The input blocks at a grid point -/

/-- The second launch's index maps, decided over its 25 points: the adjacency's, the noise's and the result's block at point
    `t` is block row `t`, column 0; the wide array's and the bias row's is the whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The adjacency's block at point `t`. -/
abbrev adjBlk (c : Dev nD) (t : Fin cfg1.N) : Vec Ideal S400x10000 .f32 := iblk1 (ent2 (F := Ideal) m ρ) c 0 t
/-- The wide array's block at point `t`. -/
abbrev wideBlk (c : Dev nD) (t : Fin cfg1.N) : Vec Ideal S10000x128 .f32 := iblk1 (ent2 (F := Ideal) m ρ) c 1 t
/-- The bias row's block at point `t`. -/
abbrev biasBlk (c : Dev nD) (t : Fin cfg1.N) : Vec Ideal S1x128 .f32 := iblk1 (ent2 (F := Ideal) m ρ) c 2 t
/-- The noise's block at point `t`. -/
abbrev epsBlk (c : Dev nD) (t : Fin cfg1.N) : Vec Ideal S400x64 .f32 := iblk1 (ent2 (F := Ideal) m ρ) c 3 t

/-- Row `p` of the adjacency's block at point `t` is row `400 t + p` of the adjacency as launched. -/
theorem adjBlk_apply (c : Dev nD) (t : Fin cfg1.N) (p : Fin 400) (r : Fin 10000) (i : Fin 10000) (hi : i.val = 400 * t.val + p.val) :
    adjBlk m ρ c t (ix2 p r) = ((m ((c.tc : Thread nD τ).loc main_arg0)) : S10000x10000.Idx → EReal) (ix2 i r) := by
  obtain ⟨e0, e1, -⟩ := idx_facts1 t
  show (ent2 (F := Ideal) m ρ c main_arg0 : S10000x10000.Idx → EReal) (((cfg1.win 0).blk t).view.emb (ix2 p r)) = _
  rw [found_adj]
  refine congrArg ((m ((c.tc : Thread nD τ).loc main_arg0)) : S10000x10000.Idx → EReal) (funext fun a => Fin.ext ?_)
  match a with
  | ⟨0, _⟩ => show win1_0.index t (0 : Fin 2) * 400 + 1 * p.val = i.val; omega
  | ⟨1, _⟩ => show win1_0.index t (1 : Fin 2) * 10000 + 1 * r.val = r.val; omega

/-- The wide array's block at any point is the whole array as the second launch finds it. -/
theorem wideBlk_apply (c : Dev nD) (t : Fin cfg1.N) (r : Fin 10000) (k : Fin 128) :
    wideBlk m ρ c t (ix2 r k) = (ent2 (F := Ideal) m ρ c main_v4 : S10000x128.Idx → EReal) (ix2 r k) := by
  obtain ⟨-, -, e2, e3, -⟩ := idx_facts1 t
  show (ent2 (F := Ideal) m ρ c main_v4 : S10000x128.Idx → EReal) (((cfg1.win 1).blk t).view.emb (ix2 r k)) = _
  refine congrArg (ent2 (F := Ideal) m ρ c main_v4 : S10000x128.Idx → EReal) (funext fun a => Fin.ext ?_)
  match a with
  | ⟨0, _⟩ => show win1_1.index t (0 : Fin 2) * 10000 + 1 * r.val = r.val; omega
  | ⟨1, _⟩ => show win1_1.index t (1 : Fin 2) * 128 + 1 * k.val = k.val; omega

/-- The bias row's block at any point is the whole row: the joined bias. -/
theorem biasBlk_apply (c : Dev nD) (t : Fin cfg1.N) (k : Fin 128) :
    biasBlk m ρ c t (ix2 (0 : Fin 1) k) = Cert.Spec.joinedB (m ((c.tc : Thread nD τ).loc main_arg5)) (m ((c.tc : Thread nD τ).loc main_arg7)) k := by
  obtain ⟨-, -, -, -, e4, e5, -⟩ := idx_facts1 t
  refine Eq.trans ?_ (found_bias_apply m ρ c k)
  show (ent2 (F := Ideal) m ρ c main_v2 : S1x128.Idx → EReal) (((cfg1.win 2).blk t).view.emb (ix2 (0 : Fin 1) k)) = _
  refine congrArg (ent2 (F := Ideal) m ρ c main_v2 : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- Row `p` of the noise's block at point `t` is row `400 t + p` of the noise as launched. -/
theorem epsBlk_apply (c : Dev nD) (t : Fin cfg1.N) (p : Fin 400) (n : Fin 64) (i : Fin 10000) (hi : i.val = 400 * t.val + p.val) :
    epsBlk m ρ c t (ix2 p n) = ((m ((c.tc : Thread nD τ).loc main_arg8)) : S10000x64.Idx → EReal) (ix2 i n) := by
  obtain ⟨-, -, -, -, -, -, e6, e7, -⟩ := idx_facts1 t
  show (ent2 (F := Ideal) m ρ c main_arg8 : S10000x64.Idx → EReal) (((cfg1.win 3).blk t).view.emb (ix2 p n)) = _
  rw [found_eps]
  refine congrArg ((m ((c.tc : Thread nD τ).loc main_arg8)) : S10000x64.Idx → EReal) (funext fun a => Fin.ext ?_)
  match a with
  | ⟨0, _⟩ => show win1_3.index t (0 : Fin 2) * 400 + 1 * p.val = i.val; omega
  | ⟨1, _⟩ => show win1_3.index t (1 : Fin 2) * 64 + 1 * n.val = n.val; omega

/-- Over the blocks at point `t`, the pre-activation at block row `p` is the specification's at row `400 t + p`. -/
theorem preZ_found (c : Dev nD) (t : Fin cfg1.N) (p : Fin 400) (k : Fin 128) (i : Fin 10000) (hi : i.val = 400 * t.val + p.val) :
    preZ (adjBlk m ρ c t) (wideBlk m ρ c t) (biasBlk m ρ c t) p k
      = Cert.Spec.pre2 (m ((c.tc : Thread nD τ).loc main_arg0)) (ent2 (F := Ideal) m ρ c main_v4) (m ((c.tc : Thread nD τ).loc main_arg5)) (m ((c.tc : Thread nD τ).loc main_arg7)) i k := by
  unfold preZ Cert.Spec.pre2
  exact congrArg₂ (· + ·)
    (Finset.sum_congr rfl fun r _ => congrArg₂ (· * ·) (adjBlk_apply m ρ c t p r i hi) (wideBlk_apply m ρ c t r k))
    (biasBlk_apply m ρ c t k)

/-- The block arithmetic over the blocks at point `t`, at block row `p`, is the specification at row `400 t + p`. -/
theorem blockZ (c : Dev nD) (t : Fin cfg1.N) (p : Fin 400) (n : Fin 64) (i : Fin 10000) (hi : i.val = 400 * t.val + p.val) :
    k1_pay1 (F := Ideal) (adjBlk m ρ c t) (wideBlk m ρ c t) (biasBlk m ρ c t) (epsBlk m ρ c t) (ix2 p n)
      = Cert.Spec.stage2 (m ((c.tc : Thread nD τ).loc main_arg0)) (ent2 (F := Ideal) m ρ c main_v4) (m ((c.tc : Thread nD τ).loc main_arg5)) (m ((c.tc : Thread nD τ).loc main_arg7)) (m ((c.tc : Thread nD τ).loc main_arg8)) (ix2 i n) := by
  refine (payZ_apply (adjBlk m ρ c t) (wideBlk m ρ c t) (biasBlk m ρ c t) (epsBlk m ρ c t) p n).trans ?_
  rw [preZ_found m ρ c t p (Cert.Spec.lo n) i hi, preZ_found m ρ c t p (Cert.Spec.hi n) i hi, epsBlk_apply m ρ c t p n i hi]
  rfl

/-! ## From the blocks to the result array -/

/-- What point `t` writes back to the result array is block `t` (rows `400 t … 400 t + 399`) of the specification. -/
theorem flushedZ (c : Dev nD) (t : Fin cfg1.N) :
    (dat1 (ent2 (F := Ideal) m ρ) c).flushed 4 t
      = ((cfg1.win 4).blk t).view.read (Elt Ideal) (Cert.Spec.stage2 (m ((c.tc : Thread nD τ).loc main_arg0)) (ent2 (F := Ideal) m ρ c main_v4) (m ((c.tc : Thread nD τ).loc main_arg5)) (m ((c.tc : Thread nD τ).loc main_arg7)) (m ((c.tc : Thread nD τ).loc main_arg8))) := by
  obtain ⟨-, -, -, -, -, -, -, -, e8, e9⟩ := idx_facts1 t
  have hN : cfg1.N = 25 := rfl
  have ht : t.val < 25 := hN ▸ t.isLt
  show (cfg1.win 4).cut (grid1.coords t) ((dat1 (ent2 (F := Ideal) m ρ) c).after 4 t) = _
  rw [after1_4, zblk_eq]
  funext j
  obtain ⟨p, n, rfl⟩ : ∃ (p : Fin 400) (n : Fin 64), j = ix2 p n := ⟨j 0, j 1, eq_ix2 j⟩
  show k1_pay1 (F := Ideal) (adjBlk m ρ c t) (wideBlk m ρ c t) (biasBlk m ρ c t) (epsBlk m ρ c t) (ix2 p n)
    = (Cert.Spec.stage2 (m ((c.tc : Thread nD τ).loc main_arg0)) (ent2 (F := Ideal) m ρ c main_v4) (m ((c.tc : Thread nD τ).loc main_arg5)) (m ((c.tc : Thread nD τ).loc main_arg7)) (m ((c.tc : Thread nD τ).loc main_arg8))) (((cfg1.win 4).blk t).view.emb (ix2 p n))
  refine (blockZ m ρ c t p n ⟨400 * t.val + p.val, by have := p.isLt; omega⟩ rfl).trans ?_
  refine congrArg (Cert.Spec.stage2 (m ((c.tc : Thread nD τ).loc main_arg0)) (ent2 (F := Ideal) m ρ c main_v4) (m ((c.tc : Thread nD τ).loc main_arg5)) (m ((c.tc : Thread nD τ).loc main_arg7)) (m ((c.tc : Thread nD τ).loc main_arg8))) (funext fun a => Fin.ext ?_)
  match a with
  | ⟨0, _⟩ => show 400 * t.val + p.val = win1_4.index t (0 : Fin 2) * 400 + 1 * p.val; omega
  | ⟨1, _⟩ => show n.val = win1_4.index t (1 : Fin 2) * 64 + 1 * n.val; omega

/-- An index of the result array is in point `t`'s block iff each coordinate is in the block's range on its axis. -/
theorem mem_blkZ (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v5).slice (win1_4.rect t)).set ↔ _
  rw [View.set_slice_whole, Rect.mem_set_unit]
  exact Iff.rfl

/-- Every row `r` of the result array lies in the block of point `r / 400`. -/
theorem coverZ (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 25 := rfl
  let t : Fin cfg1.N := ⟨(i 0).val / 400, by rw [hN]; omega⟩
  have htv : t.val = (i 0).val / 400 := rfl
  obtain ⟨-, -, -, -, -, -, -, -, e8, e9⟩ := idx_facts1 t
  refine ⟨t, flush1_4 t, ?_⟩
  rw [mem_blkZ]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- The program's result buffer after the second launch, from the first launch's output array as the second found it. -/
theorem z_of_q (c : Dev nD) :
    mem3 (F := Ideal) m ρ c (Proc.devRef .tc main_v5)
      = Cert.Spec.stage2 (m ((c.tc : Thread nD τ).loc main_arg0)) (ent2 (F := Ideal) m ρ c main_v4)
          (m ((c.tc : Thread nD τ).loc main_arg5)) (m ((c.tc : Thread nD τ).loc main_arg7))
          (m ((c.tc : Thread nD τ).loc main_arg8)) :=
  (mem3_arr m ρ c 4).trans
    ((dat1 (ent2 (F := Ideal) m ρ) c).arrAt_eq_of_cover 4 (Cert.Spec.stage2 (m ((c.tc : Thread nD τ).loc main_arg0)) (ent2 (F := Ideal) m ρ c main_v4) (m ((c.tc : Thread nD τ).loc main_arg5)) (m ((c.tc : Thread nD τ).loc main_arg7)) (m ((c.tc : Thread nD τ).loc main_arg8)))
      (fun t _ => flushedZ m ρ c t) coverZ)

end Cert.KernelIdeal.Val

end
-- ==== Proof.KI.Value.lean ====
/-
  The program's result, index by index on the extended reals, is the specification of its nine arguments: the second
  launch's result over the first launch's, and the two stages compose to the specification.
-/
import proofs.«170476_g15874199126456_cont_week2b_1129_3_alg».proof.Proof.KI.Mem
import proofs.«170476_g15874199126456_cont_week2b_1129_3_alg».proof.Proof.Joined
import proofs.«170476_g15874199126456_cont_week2b_1129_3_alg».proof.Proof.KI.ValueQ
import proofs.«170476_g15874199126456_cont_week2b_1129_3_alg».proof.Proof.KI.ValueZ
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-- The result buffer after both launches is `Cert.Spec.sample` of the launch contents of the nine arguments. -/
theorem result_spec (c : Dev nD) :
    mem3 (F := Ideal) m ρ c (Proc.devRef .tc main_v5)
      = Cert.Spec.sample (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [z_of_q, q_spec, Cert.Spec.stage2_stage1]

end Cert.KernelIdeal.Val

end
-- ==== Proof.RefValue.lean ====
/-
  The reference program's result, read index by index, is the specification `Cert.Spec.sample` of its nine arguments.

  The reference is a chain of six contractions (the projection, the first graph convolution, and for each of the two heads a
  product with the head's weights and a second graph convolution) and a handful of pointwise operations. Read at one index, each contraction is
  a finite sum in the extended reals over the contracted coordinate, each broadcast reads its operand at the surviving
  coordinates, and each pointwise operation is the extended reals' own. The layers nest three deep, so they are identified
  with the specification from the inside out:

    x · W1                         at (r, k)  is  proj r k
    max (adj · (x · W1) + b1) 0    at (i, k)  is  hidden i k
    adj · (hidden · W) + b         at (i, j)  is  head W b i j          (once per head: W, b the mean's or the log-variance's)
    mu + exp (½ · logvar) · eps    at (i, j)  is  sample i j

  No law of the extended reals is used beyond the definitions: the two sides are the same sums in the same order, and the
  float literals (the zero of the ReLU, the factor one half) are the same words on both sides and are never evaluated.
-/
import proofs.«170476_g15874199126456_cont_week2b_1129_3_alg».proof.Proof.Gen.ReferenceIdeal.Run
import proofs.«170476_g15874199126456_cont_week2b_1129_3_alg».proof.Proof.Gen.ReferenceIdeal.Read
import proofs.«170476_g15874199126456_cont_week2b_1129_3_alg».proof.Proof.Spec
import Idealize.ShloMosaic.PureOps.Ideal.Laws
import Idealize.ShloMosaic.Lib.ValueIdx
import Idealize.ShloMosaic.Lib.Pipeline.Value
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal

section Layers

open Cert.ReferenceIdeal.Read
open scoped BigOperators

/-! ## The contractions' operand indices, by coordinates

Each contraction reads its left operand at (row of the result, contracted coordinate) and its right operand at
(contracted coordinate, column of the result). -/

theorem lidx_v0 (r : Fin 10000) (k : Fin 128) (a : Fin 128) : lidx_main_v0 (ix2 r k) a = ix2 r a :=
  funext fun d => match d with | ⟨0, _⟩ => rfl | ⟨1, _⟩ => rfl
theorem ridx_v0 (r : Fin 10000) (k : Fin 128) (a : Fin 128) : ridx_main_v0 (ix2 r k) a = ix2 a k :=
  funext fun d => match d with | ⟨0, _⟩ => rfl | ⟨1, _⟩ => rfl
theorem lidx_v1 (i : Fin 10000) (k : Fin 128) (r : Fin 10000) : lidx_main_v1 (ix2 i k) r = ix2 i r :=
  funext fun d => match d with | ⟨0, _⟩ => rfl | ⟨1, _⟩ => rfl
theorem ridx_v1 (i : Fin 10000) (k : Fin 128) (r : Fin 10000) : ridx_main_v1 (ix2 i k) r = ix2 r k :=
  funext fun d => match d with | ⟨0, _⟩ => rfl | ⟨1, _⟩ => rfl
theorem lidx_v7 (r : Fin 10000) (j : Fin 64) (k : Fin 128) : lidx_main_v7 (ix2 r j) k = ix2 r k :=
  funext fun d => match d with | ⟨0, _⟩ => rfl | ⟨1, _⟩ => rfl
theorem ridx_v7 (r : Fin 10000) (j : Fin 64) (k : Fin 128) : ridx_main_v7 (ix2 r j) k = ix2 k j :=
  funext fun d => match d with | ⟨0, _⟩ => rfl | ⟨1, _⟩ => rfl
theorem lidx_v8 (i : Fin 10000) (j : Fin 64) (r : Fin 10000) : lidx_main_v8 (ix2 i j) r = ix2 i r :=
  funext fun d => match d with | ⟨0, _⟩ => rfl | ⟨1, _⟩ => rfl
theorem ridx_v8 (i : Fin 10000) (j : Fin 64) (r : Fin 10000) : ridx_main_v8 (ix2 i j) r = ix2 r j :=
  funext fun d => match d with | ⟨0, _⟩ => rfl | ⟨1, _⟩ => rfl
theorem lidx_v12 (r : Fin 10000) (j : Fin 64) (k : Fin 128) : lidx_main_v12 (ix2 r j) k = ix2 r k :=
  funext fun d => match d with | ⟨0, _⟩ => rfl | ⟨1, _⟩ => rfl
theorem ridx_v12 (r : Fin 10000) (j : Fin 64) (k : Fin 128) : ridx_main_v12 (ix2 r j) k = ix2 k j :=
  funext fun d => match d with | ⟨0, _⟩ => rfl | ⟨1, _⟩ => rfl
theorem lidx_v13 (i : Fin 10000) (j : Fin 64) (r : Fin 10000) : lidx_main_v13 (ix2 i j) r = ix2 i r :=
  funext fun d => match d with | ⟨0, _⟩ => rfl | ⟨1, _⟩ => rfl
theorem ridx_v13 (i : Fin 10000) (j : Fin 64) (r : Fin 10000) : ridx_main_v13 (ix2 i j) r = ix2 r j :=
  funext fun d => match d with | ⟨0, _⟩ => rfl | ⟨1, _⟩ => rfl

/-! ## The biases' indices: a row vector broadcast down the rows is read at the column -/

theorem bidx_b1 (i : Fin 10000) (k : Fin 128) : idx_main_v2 (idx_main_v3 (ix2 i k)) = ix1 k :=
  funext fun d => match d with | ⟨0, _⟩ => rfl
theorem bidx_bmu (i : Fin 10000) (j : Fin 64) : idx_main_v9 (idx_main_v10 (ix2 i j)) = ix1 j :=
  funext fun d => match d with | ⟨0, _⟩ => rfl
theorem bidx_blv (i : Fin 10000) (j : Fin 64) : idx_main_v14 (idx_main_v15 (ix2 i j)) = ix1 j :=
  funext fun d => match d with | ⟨0, _⟩ => rfl

/-! ## The layers, from the inside out -/

/-- The first contraction at row `r`, column `k` is the projected feature. -/
theorem v0_at (x : Spec.Mat 10000 128) (W1 : Spec.Mat 128 128) (r : Fin 10000) (k : Fin 128) :
    val_main_v0 (F := Ideal) x W1 (ix2 r k) = Spec.proj x W1 r k := by
  rw [val_main_v0_apply]
  unfold Spec.proj
  refine Finset.sum_congr rfl fun a _ => ?_
  rw [lidx_v0, ridx_v0]

/-- The graph convolution of the projected features, biased and clamped below at zero, at node `i`, unit `k` is the
    hidden layer: the contraction over the neighbours `r` reads the projected feature of `r` at the same unit. -/
theorem v6_at (adj : Spec.Mat 10000 10000) (x : Spec.Mat 10000 128) (W1 : Spec.Mat 128 128) (b1 : Spec.Row 128) (i : Fin 10000) (k : Fin 128) :
    val_main_v6 (F := Ideal) adj x W1 b1 (ix2 i k) = Spec.hidden adj x W1 b1 i k := by
  rw [val_main_v6_apply, val_main_v4_apply, val_main_v1_apply, val_main_v3_apply, val_main_v2_apply, val_main_v5_apply,
    val_main_cst_apply, bidx_b1]
  simp only [Ideal.maximumf_def, Ideal.addf_def, Ideal.ofBits_def]
  unfold Spec.hidden
  congr 2
  refine Finset.sum_congr rfl fun r _ => ?_
  rw [lidx_v1, ridx_v1, v0_at]

/-- The mean head's inner contraction at node `r`, latent coordinate `j`: the hidden layer of `r` against the weights. -/
theorem v7_at (adj : Spec.Mat 10000 10000) (x : Spec.Mat 10000 128) (W1 : Spec.Mat 128 128) (b1 : Spec.Row 128) (W : Spec.Mat 128 64)
    (r : Fin 10000) (j : Fin 64) :
    val_main_v7 (F := Ideal) adj x W1 b1 W (ix2 r j) = ∑ k : Fin 128, Spec.hidden adj x W1 b1 r k * W (ix2 k j) := by
  rw [val_main_v7_apply]
  refine Finset.sum_congr rfl fun k _ => ?_
  rw [lidx_v7, ridx_v7, v6_at]

/-- The log-variance head's inner contraction, the same sum against its own weights. -/
theorem v12_at (adj : Spec.Mat 10000 10000) (x : Spec.Mat 10000 128) (W1 : Spec.Mat 128 128) (b1 : Spec.Row 128) (W : Spec.Mat 128 64)
    (r : Fin 10000) (j : Fin 64) :
    val_main_v12 (F := Ideal) adj x W1 b1 W (ix2 r j) = ∑ k : Fin 128, Spec.hidden adj x W1 b1 r k * W (ix2 k j) := by
  rw [val_main_v12_apply]
  refine Finset.sum_congr rfl fun k _ => ?_
  rw [lidx_v12, ridx_v12, v6_at]

/-- The mean head at node `i`, latent coordinate `j`: a second graph convolution, then the bias of `j`. -/
theorem v11_at (adj : Spec.Mat 10000 10000) (x : Spec.Mat 10000 128) (W1 : Spec.Mat 128 128) (b1 : Spec.Row 128) (W : Spec.Mat 128 64) (b : Spec.Row 64)
    (i : Fin 10000) (j : Fin 64) :
    val_main_v11 (F := Ideal) adj x W1 b1 W b (ix2 i j) = Spec.head adj x W1 b1 W b i j := by
  rw [val_main_v11_apply, val_main_v8_apply, val_main_v10_apply, val_main_v9_apply, bidx_bmu]
  simp only [Ideal.addf_def]
  unfold Spec.head
  congr 1
  refine Finset.sum_congr rfl fun r _ => ?_
  rw [lidx_v8, ridx_v8, v7_at]

/-- The log-variance head at node `i`, latent coordinate `j`, likewise. -/
theorem v16_at (adj : Spec.Mat 10000 10000) (x : Spec.Mat 10000 128) (W1 : Spec.Mat 128 128) (b1 : Spec.Row 128) (W : Spec.Mat 128 64) (b : Spec.Row 64)
    (i : Fin 10000) (j : Fin 64) :
    val_main_v16 (F := Ideal) adj x W1 b1 W b (ix2 i j) = Spec.head adj x W1 b1 W b i j := by
  rw [val_main_v16_apply, val_main_v13_apply, val_main_v15_apply, val_main_v14_apply, bidx_blv]
  simp only [Ideal.addf_def]
  unfold Spec.head
  congr 1
  refine Finset.sum_congr rfl fun r _ => ?_
  rw [lidx_v13, ridx_v13, v12_at]

/-- The reference's result array is the specification of its nine arguments: at node `p`, latent coordinate `q` it is
    the mean head plus the exponential of half the log-variance head times the noise. -/
theorem result_eq (adj : Spec.Mat 10000 10000) (x : Spec.Mat 10000 128) (W1 : Spec.Mat 128 128) (b1 : Spec.Row 128) (Wmu : Spec.Mat 128 64)
    (bmu : Spec.Row 64) (Wlv : Spec.Mat 128 64) (blv : Spec.Row 64) (eps : Spec.Mat 10000 64) :
    val_main_v21 (F := Ideal) adj x W1 b1 Wmu bmu Wlv blv eps = Spec.sample adj x W1 b1 Wmu bmu Wlv blv eps := by
  funext i
  obtain ⟨p, q, rfl⟩ : ∃ (p : Fin 10000) (q : Fin 64), i = ix2 p q := ⟨i 0, i 1, eq_ix2 i⟩
  rw [val_main_v21_apply, val_main_v20_apply, val_main_v19_apply, val_main_v18_apply, val_main_v17_apply,
    val_main_cst_0_apply, v11_at, v16_at]
  simp only [Ideal.addf_def, Ideal.mulf_def, Ideal.hostUnary_exp_def, Ideal.ofBits_def]
  unfold Spec.sample
  rfl

end Layers

/-- Every weakly fair execution of the reference ends with its result buffer at the specification of the launch
    contents of the nine arguments, and with the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = Cert.Spec.sample (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run (defs (F := Ideal)) _ _).mono
    (fun _ h c => ⟨(h c).1.trans ((Read.val_main_v21_eq (F := Ideal) _ _ _ _ _ _ _ _ _).trans (result_eq _ _ _ _ _ _ _ _ _)), (h c).2⟩)
    (Cert.ReferenceIdeal.Value.run (F := Ideal) m ρ)

end Cert.ReferenceIdeal.RefValue

end
-- ==== Proof.lean ====
/-
  The five claims about the two-stage graph-convolution encoder and its reference.

  The kernel computes, in two launches over 25 row blocks of the adjacency each, first
  `stage1 = ReLU (adj · (x · W1) + b1) · [W_mu | W_lv]` (keeping `x · W1` in a scratch buffer from the first grid point
  on) and then `adj · stage1 + [b_mu | b_lv]`, whose low half is the mean and whose high half the log-variance, sampled
  as `mean + exp (½ · logvar) · eps`. The reference computes the two heads separately. Column `n` of a product with the
  joined matrix is the product with that column's own head, so both are `Cert.Spec.sample` of the nine arguments, every
  sum in the same order: the equality holds on all extended reals and the precondition is never opened.

  Frames: each printed program's run (host operations, first launch, second launch) ends with every argument buffer at
  its launch contents (`Fr.frame`, the same text at the word-level and at the ideal instance); the reference's frame is
  its run with the result dropped. The ideal pass rewrote nothing, so `preserves` is `True`.
-/
import proofs.«170476_g15874199126456_cont_week2b_1129_3_alg».proof.Defs
import proofs.«170476_g15874199126456_cont_week2b_1129_3_alg».proof.Proof.Gen.Kernel
import proofs.«170476_g15874199126456_cont_week2b_1129_3_alg».proof.Proof.Gen.KernelIdeal
import proofs.«170476_g15874199126456_cont_week2b_1129_3_alg».proof.Proof.Gen.ReferenceIdeal
import proofs.«170476_g15874199126456_cont_week2b_1129_3_alg».proof.Proof.Gen.Pre_finite_inputs
import proofs.«170476_g15874199126456_cont_week2b_1129_3_alg».proof.Proof.K.Run
import proofs.«170476_g15874199126456_cont_week2b_1129_3_alg».proof.Proof.KI.Run
import proofs.«170476_g15874199126456_cont_week2b_1129_3_alg».proof.Proof.KI.Value
import proofs.«170476_g15874199126456_cont_week2b_1129_3_alg».proof.Proof.RefValue
import Idealize.ShloMosaic.Adequacy
import Idealize.ShloMosaic.Init

noncomputable section

namespace Cert.Proof

open Idealize.ShloMosaic Idealize.SL.Sem

/-- The word-level program runs to the end and leaves its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- The idealized program runs to the end and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference runs to the end and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spec m ρ)

/-- From memories agreeing on the arguments both idealized programs end with the result array at the specification
    of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.sample (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Val.result_spec m ρ c), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.RefValue.run_spec m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
